-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S512x512 : Shape := ⟨2, ![512, 512]⟩
abbrev S512 : Shape := ⟨1, ![512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S512x512 .f32) (main_arg12 : FVec F S512x512 .f32) (main_arg13 : FVec F S512x512 .f32) (main_v48 : IVec S_ 1) (main_v49 : FVec F S512x512 .f32) (main_v50 : FVec F S512x512 .f32) : IVec S_ 1 :=
  let main_v51 : IVec S512x512 1 := cmpf .olt main_v49 main_v50
  let main_c_19 : IVec S_ 1 := constantI S_ 1 1#1
  let main_v52 : IVec S_ 1 := (fun x v => Host.reduce IntOp.andi x v reducesTo_S512x512_S_d0_1 h_S_) main_v51 main_c_19
  let main_v53 : IVec S_ 1 := andi main_v48 main_v52
  let main_v54 : FVec F S512x512 .f32 := Host.absf main_arg11
  let main_cst_20 : FVec F S_ .f32 := constant S_ .f32 0x7F800000#32
  let main_v55 : FVec F S512x512 .f32 := broadcastInDim S512x512 ![] bcast_S_S512x512 main_cst_20
  let main_v56 : IVec S512x512 1 := cmpf .olt main_v54 main_v55
  let main_c_21 : IVec S_ 1 := constantI S_ 1 1#1
  let main_v57 : IVec S_ 1 := (fun x v => Host.reduce IntOp.andi x v reducesTo_S512x512_S_d0_1 h_S_) main_v56 main_c_21
  let main_v58 : IVec S_ 1 := andi main_v53 main_v57
  let main_v59 : FVec F S512x512 .f32 := Host.absf main_arg12
  let main_cst_22 : FVec F S_ .f32 := constant S_ .f32 0x7F800000#32
  let main_v60 : FVec F S512x512 .f32 := broadcastInDim S512x512 ![] bcast_S_S512x512 main_cst_22
  let main_v61 : IVec S512x512 1 := cmpf .olt main_v59 main_v60
  let main_c_23 : IVec S_ 1 := constantI S_ 1 1#1
  let main_v62 : IVec S_ 1 := (fun x v => Host.reduce IntOp.andi x v reducesTo_S512x512_S_d0_1 h_S_) main_v61 main_c_23
  let main_v63 : IVec S_ 1 := andi main_v58 main_v62
  let main_v64 : FVec F S512x512 .f32 := Host.absf main_arg13
  let main_cst_24 : FVec F S_ .f32 := constant S_ .f32 0x7F800000#32
  let main_v65 : FVec F S512x512 .f32 := broadcastInDim S512x512 ![] bcast_S_S512x512 main_cst_24
  let main_v66 : IVec S512x512 1 := cmpf .olt main_v64 main_v65
  let main_c_25 : IVec S_ 1 := constantI S_ 1 1#1
  let main_v67 : IVec S_ 1 := (fun x v => Host.reduce IntOp.andi x v reducesTo_S512x512_S_d0_1 h_S_) main_v66 main_c_25
  fn_part4 (F := F) main_v63 main_v67

def fn_part2 {F : FTy → Type} [FloatOps F] (main_arg7 : FVec F S512 .f32) (main_arg8 : FVec F S512 .f32) (main_arg9 : FVec F S512 .f32) (main_arg10 : FVec F S512x512 .f32) (main_arg11 : FVec F S512x512 .f32) (main_arg12 : FVec F S512x512 .f32) (main_arg13 : FVec F S512x512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512x512 .f32 := Host.absf main_arg10
  let main_cst_18 : FVec F S_ .f32 := constant S_ .f32 0x7F800000#32
  let main_v50 : FVec F S512x512 .f32 := broadcastInDim S512x512 ![] bcast_S_S512x512 main_cst_18
  fn_part3 (F := F) main_arg11 main_arg12 main_arg13 main_v48 main_v49 main_v50

def fn_part1 {F : FTy → Type} [FloatOps F] (main_arg4 : FVec F S512x512 .f32) (main_arg5 : FVec F S512x512 .f32) (main_arg6 : FVec F S512 .f32) (main_arg7 : FVec F S512 .f32) (main_arg8 : FVec F S512 .f32) (main_arg9 : FVec F S512 .f32) (main_arg10 : FVec F S512x512 .f32) (main_arg11 : FVec F S512x512 .f32) (main_arg12 : FVec F S512x512 .f32) (main_arg13 : FVec F S512x512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S16384x512 .f32) (main_arg1 : FVec F S16384x512 .f32) (main_arg2 : FVec F S512x512 .f32) (main_arg3 : FVec F S512x512 .f32) (main_arg4 : FVec F S512x512 .f32) (main_arg5 : FVec F S512x512 .f32) (main_arg6 : FVec F S512 .f32) (main_arg7 : FVec F S512 .f32) (main_arg8 : FVec F S512 .f32) (main_arg9 : FVec F S512 .f32) (main_arg10 : FVec F S512x512 .f32) (main_arg11 : FVec F S512x512 .f32) (main_arg12 : FVec F S512x512 .f32) (main_arg13 : FVec F S512x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_arg9 main_arg10 main_arg11 main_arg12 main_arg13 main_v13 main_v16
-- ==== Kernel.lean ====
abbrev S16384x512 : Shape := ⟨2, ![16384, 512]⟩
abbrev S512x512 : Shape := ⟨2, ![512, 512]⟩
abbrev S512 : Shape := ⟨1, ![512]⟩
abbrev S2048x512 : Shape := ⟨2, ![2048, 512]⟩
abbrev S2048 : Shape := ⟨1, ![2048]⟩
abbrev S1x2048 : Shape := ⟨2, ![1, 2048]⟩
abbrev S512x2048 : Shape := ⟨2, ![512, 2048]⟩

abbrev nBuf : Space → Nat
  | .hbm => 22
  | .vmem => 11
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S512x512, .f32⟩
  | .hbm, ⟨11, _⟩ => ⟨S512x512, .f32⟩
  | .hbm, ⟨12, _⟩ => ⟨S512x512, .f32⟩
  | .hbm, ⟨13, _⟩ => ⟨S512x512, .f32⟩
  | .hbm, ⟨14, _⟩ => ⟨S2048x512, .f32⟩
  | .hbm, ⟨15, _⟩ => ⟨S2048x512, .bf16⟩
  | .hbm, ⟨16, _⟩ => ⟨S2048x512, .f32⟩
  | .hbm, ⟨17, _⟩ => ⟨S2048x512, .bf16⟩
  | .hbm, ⟨18, _⟩ => ⟨S2048, .f32⟩
  | .hbm, ⟨19, _⟩ => ⟨S1x2048, .f32⟩
  | .hbm, ⟨20, _⟩ => ⟨S16384x512, .f32⟩
  | .hbm, ⟨21, _⟩ => ⟨S16384x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S2048x512, .bf16⟩
  | .local _ .vmem, ⟨5, _⟩ => ⟨S2048x512, .bf16⟩
  | .local _ .vmem, ⟨6, _⟩ => ⟨S1x2048, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6_0 : Ref sig .tc := ⟨.hbm, 20, rfl⟩
abbrev main_v6_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  concatenates_S512x512_S512x512_S512x512_S512x512_S2048x512_d0 : Shape.Concatenates [S512x512, S512x512, S512x512, S512x512] S2048x512 0
  bitsLt_bf16_f32 : FTy.bits .bf16 < FTy.bits .f32
  concatenates_S512_S512_S512_S512_S2048_d0 : Shape.Concatenates [S512, S512, S512, S512] S2048 0
  shapeCasts_S2048_S1x2048 : S2048.ShapeCasts S1x2048
  inb_S512x512_S512x512_0_0 : ∀ a, (![0, 0] : Fin 2 → Nat) a + S512x512.size a ≤ S512x512.size a
  h_S512x512 : 0 < S512x512.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  slices_S512x2048_o0_0_S512x512 : S512x2048.Slices ![0, 0] S512x512
  slices_S512x2048_o0_512_S512x512 : S512x2048.Slices ![0, 512] S512x512
  slices_S512x2048_o0_1024_S512x512 : S512x2048.Slices ![0, 1024] S512x512
  slices_S512x2048_o0_1536_S512x512 : S512x2048.Slices ![0, 1536] S512x512
  dot_S512x512_S2048x512_S512x2048_1_1_0_0_n_n_wf : DotDims.WF S512x512 S2048x512 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S16384x512.size a
  hwx0_1 : ∀ i : grid0.Coords, EltTy.bits .f32 = 32 ∨ (Rect.block (s := S16384x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S2048x512.size a
  hwx0_2 : ∀ i : grid0.Coords, EltTy.bits .bf16 = 32 ∨ (Rect.block (s := S2048x512) S2048x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S2048x512.size a
  hwx0_3 : ∀ i : grid0.Coords, EltTy.bits .bf16 = 32 ∨ (Rect.block (s := S2048x512) S2048x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S16384x512.size a
  hwx0_5 : ∀ i : grid0.Coords, EltTy.bits .f32 = 32 ∨ (Rect.block (s := S16384x512) S512x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S16384x512.size a
  hwx0_6 : ∀ i : grid0.Coords, EltTy.bits .f32 = 32 ∨ (Rect.block (s := S16384x512) S512x512.size (cc0_transform_6 i) (hinb0_6 i)).WholeWords (EltTy.packing .f32)

variable [Facts₀]

def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf

abbrev win0_0 : Pipeline.Window sig grid0 :=
  Pipeline.Window.ofSpec (Memref.whole main_arg1) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6_0) S512x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_1) S512x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x512 : Shape := ⟨2, ![16384, 512]⟩
abbrev S512x512 : Shape := ⟨2, ![512, 512]⟩
abbrev S512 : Shape := ⟨1, ![512]⟩
abbrev S1x512x512 : Shape := ⟨3, ![1, 512, 512]⟩
abbrev S4x512x512 : Shape := ⟨3, ![4, 512, 512]⟩
abbrev S1x512 : Shape := ⟨2, ![1, 512]⟩
abbrev S4x512 : Shape := ⟨2, ![4, 512]⟩
abbrev S4x512x16384 : Shape := ⟨3, ![4, 512, 16384]⟩
abbrev S4x16384x512 : Shape := ⟨3, ![4, 16384, 512]⟩
abbrev S4x1x512 : Shape := ⟨3, ![4, 1, 512]⟩
abbrev S1x16384x512 : Shape := ⟨3, ![1, 16384, 512]⟩
abbrev S_ : Shape := ⟨0, ![]⟩

abbrev nBuf : Space → Nat
  | .hbm => 75
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S512x512, .f32⟩
  | .hbm, ⟨11, _⟩ => ⟨S512x512, .f32⟩
  | .hbm, ⟨12, _⟩ => ⟨S512x512, .f32⟩
  | .hbm, ⟨13, _⟩ => ⟨S512x512, .f32⟩
  | .hbm, ⟨14, _⟩ => ⟨S1x512x512, .f32⟩
  | .hbm, ⟨15, _⟩ => ⟨S1x512x512, .f32⟩
  | .hbm, ⟨16, _⟩ => ⟨S1x512x512, .f32⟩
  | .hbm, ⟨17, _⟩ => ⟨S1x512x512, .f32⟩
  | .hbm, ⟨18, _⟩ => ⟨S4x512x512, .f32⟩
  | .hbm, ⟨19, _⟩ => ⟨S1x512, .f32⟩
  | .hbm, ⟨20, _⟩ => ⟨S1x512, .f32⟩
  | .hbm, ⟨21, _⟩ => ⟨S1x512, .f32⟩
  | .hbm, ⟨22, _⟩ => ⟨S1x512, .f32⟩
  | .hbm, ⟨23, _⟩ => ⟨S4x512, .f32⟩
  | .hbm, ⟨24, _⟩ => ⟨S1x512x512, .f32⟩
  | .hbm, ⟨25, _⟩ => ⟨S1x512x512, .f32⟩
  | .hbm, ⟨26, _⟩ => ⟨S1x512x512, .f32⟩
  | .hbm, ⟨27, _⟩ => ⟨S1x512x512, .f32⟩
  | .hbm, ⟨28, _⟩ => ⟨S4x512x512, .f32⟩
  | .hbm, ⟨29, _⟩ => ⟨S4x512x16384, .f32⟩
  | .hbm, ⟨30, _⟩ => ⟨S4x16384x512, .f32⟩
  | .hbm, ⟨31, _⟩ => ⟨S4x1x512, .f32⟩
  | .hbm, ⟨32, _⟩ => ⟨S4x16384x512, .f32⟩
  | .hbm, ⟨33, _⟩ => ⟨S4x16384x512, .f32⟩
  | .hbm, ⟨34, _⟩ => ⟨S4x512x16384, .f32⟩
  | .hbm, ⟨35, _⟩ => ⟨S4x16384x512, .f32⟩
  | .hbm, ⟨36, _⟩ => ⟨S4x16384x512, .f32⟩
  | .hbm, ⟨37, _⟩ => ⟨S1x16384x512, .f32⟩
  | .hbm, ⟨38, _⟩ => ⟨S16384x512, .f32⟩
  | .hbm, ⟨39, _⟩ => ⟨S16384x512, .f32⟩
  | .hbm, ⟨40, _⟩ => ⟨S16384x512, .f32⟩
  | .hbm, ⟨41, _⟩ => ⟨S_, .f32⟩
  | .hbm, ⟨42, _⟩ => ⟨S16384x512, .f32⟩
  | .hbm, ⟨43, _⟩ => ⟨S16384x512, .f32⟩
  | .hbm, ⟨44, _⟩ => ⟨S_, .f32⟩
  | .hbm, ⟨45, _⟩ => ⟨S16384x512, .f32⟩
  | .hbm, ⟨46, _⟩ => ⟨S16384x512, .f32⟩
  | .hbm, ⟨47, _⟩ => ⟨S1x16384x512, .f32⟩
  | .hbm, ⟨48, _⟩ => ⟨S16384x512, .f32⟩
  | .hbm, ⟨49, _⟩ => ⟨S16384x512, .f32⟩
  | .hbm, ⟨50, _⟩ => ⟨S16384x512, .f32⟩
  | .hbm, ⟨51, _⟩ => ⟨S_, .f32⟩
  | .hbm, ⟨52, _⟩ => ⟨S16384x512, .f32⟩
  | .hbm, ⟨53, _⟩ => ⟨S16384x512, .f32⟩
  | .hbm, ⟨54, _⟩ => ⟨S_, .f32⟩
  | .hbm, ⟨55, _⟩ => ⟨S16384x512, .f32⟩
  | .hbm, ⟨56, _⟩ => ⟨S16384x512, .f32⟩
  | .hbm, ⟨57, _⟩ => ⟨S1x16384x512, .f32⟩
  | .hbm, ⟨58, _⟩ => ⟨S16384x512, .f32⟩
  | .hbm, ⟨59, _⟩ => ⟨S16384x512, .f32⟩
  | .hbm, ⟨60, _⟩ => ⟨S1x16384x512, .f32⟩
  | .hbm, ⟨61, _⟩ => ⟨S16384x512, .f32⟩
  | .hbm, ⟨62, _⟩ => ⟨S16384x512, .f32⟩
  | .hbm, ⟨63, _⟩ => ⟨S16384x512, .f32⟩
  | .hbm, ⟨64, _⟩ => ⟨S_, .f32⟩
  | .hbm, ⟨65, _⟩ => ⟨S16384x512, .f32⟩
  | .hbm, ⟨66, _⟩ => ⟨S16384x512, .f32⟩
  | .hbm, ⟨67, _⟩ => ⟨S_, .f32⟩
  | .hbm, ⟨68, _⟩ => ⟨S16384x512, .f32⟩
  | .hbm, ⟨69, _⟩ => ⟨S16384x512, .f32⟩
  | .hbm, ⟨70, _⟩ => ⟨S16384x512, .f32⟩
  | .hbm, ⟨71, _⟩ => ⟨S16384x512, .f32⟩
  | .hbm, ⟨72, _⟩ => ⟨S16384x512, .f32⟩
  | .hbm, ⟨73, _⟩ => ⟨S16384x512, .f32⟩
  | .hbm, ⟨74, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst : Ref sig .tc := ⟨.hbm, 41, rfl⟩
abbrev main_v27 : Ref sig .tc := ⟨.hbm, 42, rfl⟩
abbrev main_v28 : Ref sig .tc := ⟨.hbm, 43, rfl⟩
abbrev main_cst_0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_1 : Ref sig .tc := ⟨.hbm, 51, rfl⟩
abbrev main_v35 : Ref sig .tc := ⟨.hbm, 52, rfl⟩
abbrev main_v36 : Ref sig .tc := ⟨.hbm, 53, rfl⟩
abbrev main_cst_2 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_3 : Ref sig .tc := ⟨.hbm, 64, rfl⟩
abbrev main_v46 : Ref sig .tc := ⟨.hbm, 65, rfl⟩
abbrev main_v47 : Ref sig .tc := ⟨.hbm, 66, rfl⟩
abbrev main_cst_4 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]

class Facts₀ : Prop where
  bcast_S512x512_S1x512x512_1_2 : S512x512.BroadcastsInDim S1x512x512 (![1, 2] : Fin 2 → Fin S1x512x512.rank)
  concatenates_S1x512x512_S1x512x512_S1x512x512_S1x512x512_S4x512x512_d0 : Shape.Concatenates [S1x512x512, S1x512x512, S1x512x512, S1x512x512] S4x512x512 0
  bcast_S512_S1x512_1 : S512.BroadcastsInDim S1x512 (![1] : Fin 1 → Fin S1x512.rank)
  concatenates_S1x512_S1x512_S1x512_S1x512_S4x512_d0 : Shape.Concatenates [S1x512, S1x512, S1x512, S1x512] S4x512 0
  transposes_S4x512x16384_S4x16384x512_0_2_1 : S4x512x16384.Transposes [0, 2, 1] S4x16384x512
  bcast_S4x512_S4x1x512_0_2 : S4x512.BroadcastsInDim S4x1x512 (![0, 2] : Fin 2 → Fin S4x1x512.rank)
  bcast_S4x1x512_S4x16384x512_0_1_2 : S4x1x512.BroadcastsInDim S4x16384x512 (![0, 1, 2] : Fin 3 → Fin S4x16384x512.rank)
  slices_S4x16384x512_S1x16384x512_0_0_0 : S4x16384x512.Slices ![0, 0, 0] S1x16384x512
  shapeCasts_S1x16384x512_S16384x512 : S1x16384x512.ShapeCasts S16384x512
  bcast_S_S16384x512 : S_.BroadcastsInDim S16384x512 (![] : Fin 0 → Fin S16384x512.rank)
  slices_S4x16384x512_S1x16384x512_1_0_0 : S4x16384x512.Slices ![1, 0, 0] S1x16384x512
  slices_S4x16384x512_S1x16384x512_2_0_0 : S4x16384x512.Slices ![2, 0, 0] S1x16384x512
  slices_S4x16384x512_S1x16384x512_3_0_0 : S4x16384x512.Slices ![3, 0, 0] S1x16384x512
  dot_S4x512x512_S16384x512_S4x512x16384_2_1_01_0_n_n_wf : DotDims.WF S4x512x512 S16384x512 S4x512x16384 [2] [1] [0, 1] [0] [] []

variable [Facts₀]

def dot_S4x512x512_S16384x512_S4x512x16384_2_1_01_0_n_n : DotDims S4x512x512 S16384x512 S4x512x16384 where
  lhsContracting := [2]
  rhsContracting := [1]
  lhsNonContracting := [0, 1]
  rhsNonContracting := [0]
  lhsBatch := []
  rhsBatch := []
  wf := dot_S4x512x512_S16384x512_S4x512x16384_2_1_01_0_n_n_wf

class Facts : Prop extends Facts₀ where

variable [Facts]
-- ==== Proof.FrameBits.lean ====
/-
  The frame of the LSTM-cell program: it runs to the end, faults nowhere and leaves its fourteen argument arrays as
  launched; and, beyond the frame, what its two result arrays hold afterwards, block by block.

  @main first stacks the four input-weight matrices, the four hidden-weight matrices and the four biases (three
  concatenations, two changes of float format, one reshape) and then enters ONE pipelined region of 32 grid points.
  At point `t` the body is handed rows `512·t … 512·t + 511` of `x` and of `z` (windows 0 and 1), the two stacked
  weight matrices and the bias row whole (windows 2, 3, 4: fetched once, their block index never moves), and two
  512 × 512 result buffers (windows 5 and 6). It loads the five inputs whole, stores one value over the whole of each
  result buffer, and touches nothing else; so after the body each input buffer still holds its block and each result
  buffer holds the one stored value, a function of the five input blocks (`outH`, `outC`). From this the
  pipeline library's frame run gives: every window's array at what the write-backs make of it (`Dat.arrAt`), every
  other buffer as the region found it; and the host operations before the region write none of the arguments.
-/
import proofs.«174672_j5557687681205_1_alg».proof.Proof.Gen.Kernel.Launch
import proofs.«174672_j5557687681205_1_alg».proof.Proof.Gen.Kernel.Skeleton
import proofs.«174672_j5557687681205_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the six host operations. -/
abbrev V (c : Dev nD) (b : Ref sig .tc) : Buf (Elt F) ((c : Thread nD τ).loc b) :=
  StableHlo.after hostOps0 (fun b => m (c, b)) b

/-- None of the six host operations allocates a buffer. -/
theorem hostOps0_fresh : (hostOps0 : List (HloOp τ sig (Elt F))).Forall fun op => op.fresh = ∅ := by
  simp only [List.Forall]; repeat' constructor

/-- @main is its host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operations write `main_v0 … main_v5` only: any other buffer is found as launched. -/
theorem V_kept (c : Dev nD) (b : Ref sig .tc) (h0 : b ≠ main_v0) (h1 : b ≠ main_v1) (h2 : b ≠ main_v2) (h3 : b ≠ main_v3)
    (h4 : b ≠ main_v4) (h5 : b ≠ main_v5) : V m c b = m ((c : Thread nD τ).loc b) :=
  StableHlo.after_of_forall_not_mem (b := Proc.devRef .tc b) _ _ (List.forall_iff_forall_mem.mp (by
    simp only [hostOps0, List.Forall, StableHlo.nary_writes, StableHlo.unary_writes, StableHlo.reshape_writes, Finset.mem_singleton]
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5⟩))

theorem V_main_arg0 (c : Dev nD) : V m c main_arg0 = m ((c : Thread nD τ).loc main_arg0) :=
  V_kept m c main_arg0 (by decide) (by decide) (by decide) (by decide) (by decide) (by decide)
theorem V_main_arg1 (c : Dev nD) : V m c main_arg1 = m ((c : Thread nD τ).loc main_arg1) :=
  V_kept m c main_arg1 (by decide) (by decide) (by decide) (by decide) (by decide) (by decide)
theorem V_main_arg2 (c : Dev nD) : V m c main_arg2 = m ((c : Thread nD τ).loc main_arg2) :=
  V_kept m c main_arg2 (by decide) (by decide) (by decide) (by decide) (by decide) (by decide)
theorem V_main_arg3 (c : Dev nD) : V m c main_arg3 = m ((c : Thread nD τ).loc main_arg3) :=
  V_kept m c main_arg3 (by decide) (by decide) (by decide) (by decide) (by decide) (by decide)
theorem V_main_arg4 (c : Dev nD) : V m c main_arg4 = m ((c : Thread nD τ).loc main_arg4) :=
  V_kept m c main_arg4 (by decide) (by decide) (by decide) (by decide) (by decide) (by decide)
theorem V_main_arg5 (c : Dev nD) : V m c main_arg5 = m ((c : Thread nD τ).loc main_arg5) :=
  V_kept m c main_arg5 (by decide) (by decide) (by decide) (by decide) (by decide) (by decide)
theorem V_main_arg6 (c : Dev nD) : V m c main_arg6 = m ((c : Thread nD τ).loc main_arg6) :=
  V_kept m c main_arg6 (by decide) (by decide) (by decide) (by decide) (by decide) (by decide)
theorem V_main_arg7 (c : Dev nD) : V m c main_arg7 = m ((c : Thread nD τ).loc main_arg7) :=
  V_kept m c main_arg7 (by decide) (by decide) (by decide) (by decide) (by decide) (by decide)
theorem V_main_arg8 (c : Dev nD) : V m c main_arg8 = m ((c : Thread nD τ).loc main_arg8) :=
  V_kept m c main_arg8 (by decide) (by decide) (by decide) (by decide) (by decide) (by decide)
theorem V_main_arg9 (c : Dev nD) : V m c main_arg9 = m ((c : Thread nD τ).loc main_arg9) :=
  V_kept m c main_arg9 (by decide) (by decide) (by decide) (by decide) (by decide) (by decide)
theorem V_main_arg10 (c : Dev nD) : V m c main_arg10 = m ((c : Thread nD τ).loc main_arg10) :=
  V_kept m c main_arg10 (by decide) (by decide) (by decide) (by decide) (by decide) (by decide)
theorem V_main_arg11 (c : Dev nD) : V m c main_arg11 = m ((c : Thread nD τ).loc main_arg11) :=
  V_kept m c main_arg11 (by decide) (by decide) (by decide) (by decide) (by decide) (by decide)
theorem V_main_arg12 (c : Dev nD) : V m c main_arg12 = m ((c : Thread nD τ).loc main_arg12) :=
  V_kept m c main_arg12 (by decide) (by decide) (by decide) (by decide) (by decide) (by decide)
theorem V_main_arg13 (c : Dev nD) : V m c main_arg13 = m ((c : Thread nD τ).loc main_arg13) :=
  V_kept m c main_arg13 (by decide) (by decide) (by decide) (by decide) (by decide) (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (where it is not
    fetched its block index has not moved), for any proof data over these arrays whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame run's post read at the fourteen arguments: `x` and `z` are staged inputs, never written back; the other
    twelve are staged by no window. -/
theorem kept_of_post (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  ⟨((h c).1 1).trans (((dats 0 c).arrAt_in 1 rfl _).trans ((hA c 1).trans (V_main_arg0 m c))),
      ((h c).1 0).trans (((dats 0 c).arrAt_in 0 rfl _).trans ((hA c 0).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c)⟩

/-- So a frame run of any proof data over these arrays is the frame claim's run. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => kept_of_post m dats hA r h c) h

/-! ## The body's accesses and what it leaves in the result buffers -/

abbrev rT : Rect S512x512 := Rect.unit (s := S512x512) ![0, 0] S512x512.size inb_S512x512_S512x512_0_0
abbrev rW : Rect S2048x512 := Rect.unit (s := S2048x512) ![0, 0] S2048x512.size inb_S2048x512_S2048x512_0_0
abbrev rB : Rect S1x2048 := Rect.unit (s := S1x2048) ![0, 0] S1x2048.size inb_S1x2048_S1x2048_0_0

/-- Window 5's buffer (the next hidden state's tile) after the body: its one store over the whole buffer. -/
def outH (x0 x1 : Vec F S512x512 .f32) (x2 x3 : Vec F S2048x512 .bf16) (x4 : Vec F S1x2048 .f32) : Vec F S512x512 .f32 :=
  View.canon [⟨rT, k0_pay3 (View.ld x0 rT) (View.ld x1 rT) (View.ld x2 rW) (View.ld x3 rW) (View.ld x4 rB)⟩]

/-- Window 6's buffer (the next cell state's tile) after the body: its one store over the whole buffer. -/
def outC (x0 x1 : Vec F S512x512 .f32) (x2 x3 : Vec F S2048x512 .bf16) (x4 : Vec F S1x2048 .f32) : Vec F S512x512 .f32 :=
  View.canon [⟨rT, k0_pay2 (View.ld x0 rT) (View.ld x1 rT) (View.ld x2 rW) (View.ld x3 rW) (View.ld x4 rB)⟩]

/-- A store over the whole 512 × 512 buffer covers it. -/
theorem coverT (p0 : Vec F S512x512 .f32) (y : S512x512.Idx) :
    ∃ pc ∈ ([⟨rT, p0⟩] : List (View.Piece (Elt F) S512x512 .f32)), y ∈ pc.1.set :=
  View.cover_of_tiled [⟨rT, p0⟩] S512x512.size (by rfl) y

/-! ## The body's triple -/

set_option maxHeartbeats 4000000 in
/-- The body on whole staging memrefs, the five inputs' at contents `x0 … x4` and the two results' at anything, runs
    to a continuation that is given the inputs' as they were and the results' at `outH`, `outC` of the inputs'. -/
theorem sound_kernel (c : Dev nD) (E : Set ℕ) (i : grid0.Coords)
    (arg1 : Memref sig .tc .vmem S512x512 .f32) (harg1 : arg1.IsWhole) (arg2 : Memref sig .tc .vmem S512x512 .f32) (harg2 : arg2.IsWhole)
    (arg3 : Memref sig .tc .vmem S2048x512 .bf16) (harg3 : arg3.IsWhole) (arg4 : Memref sig .tc .vmem S2048x512 .bf16) (harg4 : arg4.IsWhole)
    (arg5 : Memref sig .tc .vmem S1x2048 .f32) (harg5 : arg5.IsWhole)
    (arg6 : Memref sig .tc .vmem S512x512 .f32) (harg6 : arg6.IsWhole) (arg7 : Memref sig .tc .vmem S512x512 .f32) (harg7 : arg7.IsWhole)
    (x0 x1 : Vec F S512x512 .f32) (x2 x3 : Vec F S2048x512 .bf16) (x4 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outH x0 x1 x2 x3 x4) ∗ owns (c : Thread nD τ) arg7 fullShare (outC x0 x1 x2 x3 x4)) -∗ K ⟨⟩))
      ⊢ wp frame (wpE (defs₀ (F := F)) Variants.none c none) E
          (cc0__lstm_cell_kernel i arg1 harg1 arg2 harg2 arg3 harg3 arg4 harg4 arg5 harg5 arg6 harg6 arg7 harg7) K := by
  simp only [cc0__lstm_cell_kernel_eq_skeleton]; unfold cc0__lstm_cell_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverT _)
  iexists _; isplitr
  swap; · iexact H6
  ipureintro
  exact View.read_writes_eq_canon _ _ _ (coverT _)

/-! ## The pipeline's proof data -/

/-- The proof data of the pipeline on core `c`: the arrays as the region finds them; after the body at point `t` each
    input's buffer at its block and each result's at `outH` / `outC` of the five input blocks; the invariant the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outH (iblk m c 0 t) (iblk m c 1 t) (iblk m c 2 t) (iblk m c 3 t) (iblk m c 4 t)
    | ⟨6, _⟩ => outC (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = outH (iblk m c 0 t) (iblk m c 1 t) (iblk m c 2 t) (iblk m c 3 t) (iblk m c 4 t) := by dsimp only [dats]
theorem after0_6 (c : Dev nD) (t : Fin cfg0.N) :
    (dats m 0 c).after 6 t = outC (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' memrefs hold their blocks, so `sound_kernel` applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what
    the write-backs make of the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and its fourteen arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

end Cert.Kernel.Fr

end
-- ==== Proof.FrameIdeal.lean ====
/-
  The frame of the LSTM-cell program: it runs to the end, faults nowhere and leaves its fourteen argument arrays as
  launched; and, beyond the frame, what its two result arrays hold afterwards, block by block.

  @main first stacks the four input-weight matrices, the four hidden-weight matrices and the four biases (three
  concatenations, two changes of float format, one reshape) and then enters ONE pipelined region of 32 grid points.
  At point `t` the body is handed rows `512·t … 512·t + 511` of `x` and of `z` (windows 0 and 1), the two stacked
  weight matrices and the bias row whole (windows 2, 3, 4: fetched once, their block index never moves), and two
  512 × 512 result buffers (windows 5 and 6). It loads the five inputs whole, stores one value over the whole of each
  result buffer, and touches nothing else; so after the body each input buffer still holds its block and each result
  buffer holds the one stored value, a function of the five input blocks (`outH`, `outC`). From this the
  pipeline library's frame run gives: every window's array at what the write-backs make of it (`Dat.arrAt`), every
  other buffer as the region found it; and the host operations before the region write none of the arguments.
-/
import proofs.«174672_j5557687681205_1_alg».proof.Proof.Gen.KernelIdeal.Launch
import proofs.«174672_j5557687681205_1_alg».proof.Proof.Gen.KernelIdeal.Skeleton
import proofs.«174672_j5557687681205_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the six host operations. -/
abbrev V (c : Dev nD) (b : Ref sig .tc) : Buf (Elt F) ((c : Thread nD τ).loc b) :=
  StableHlo.after hostOps0 (fun b => m (c, b)) b

/-- None of the six host operations allocates a buffer. -/
theorem hostOps0_fresh : (hostOps0 : List (HloOp τ sig (Elt F))).Forall fun op => op.fresh = ∅ := by
  simp only [List.Forall]; repeat' constructor

/-- @main is its host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operations write `main_v0 … main_v5` only: any other buffer is found as launched. -/
theorem V_kept (c : Dev nD) (b : Ref sig .tc) (h0 : b ≠ main_v0) (h1 : b ≠ main_v1) (h2 : b ≠ main_v2) (h3 : b ≠ main_v3)
    (h4 : b ≠ main_v4) (h5 : b ≠ main_v5) : V m c b = m ((c : Thread nD τ).loc b) :=
  StableHlo.after_of_forall_not_mem (b := Proc.devRef .tc b) _ _ (List.forall_iff_forall_mem.mp (by
    simp only [hostOps0, List.Forall, StableHlo.nary_writes, StableHlo.unary_writes, StableHlo.reshape_writes, Finset.mem_singleton]
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5⟩))

theorem V_main_arg0 (c : Dev nD) : V m c main_arg0 = m ((c : Thread nD τ).loc main_arg0) :=
  V_kept m c main_arg0 (by decide) (by decide) (by decide) (by decide) (by decide) (by decide)
theorem V_main_arg1 (c : Dev nD) : V m c main_arg1 = m ((c : Thread nD τ).loc main_arg1) :=
  V_kept m c main_arg1 (by decide) (by decide) (by decide) (by decide) (by decide) (by decide)
theorem V_main_arg2 (c : Dev nD) : V m c main_arg2 = m ((c : Thread nD τ).loc main_arg2) :=
  V_kept m c main_arg2 (by decide) (by decide) (by decide) (by decide) (by decide) (by decide)
theorem V_main_arg3 (c : Dev nD) : V m c main_arg3 = m ((c : Thread nD τ).loc main_arg3) :=
  V_kept m c main_arg3 (by decide) (by decide) (by decide) (by decide) (by decide) (by decide)
theorem V_main_arg4 (c : Dev nD) : V m c main_arg4 = m ((c : Thread nD τ).loc main_arg4) :=
  V_kept m c main_arg4 (by decide) (by decide) (by decide) (by decide) (by decide) (by decide)
theorem V_main_arg5 (c : Dev nD) : V m c main_arg5 = m ((c : Thread nD τ).loc main_arg5) :=
  V_kept m c main_arg5 (by decide) (by decide) (by decide) (by decide) (by decide) (by decide)
theorem V_main_arg6 (c : Dev nD) : V m c main_arg6 = m ((c : Thread nD τ).loc main_arg6) :=
  V_kept m c main_arg6 (by decide) (by decide) (by decide) (by decide) (by decide) (by decide)
theorem V_main_arg7 (c : Dev nD) : V m c main_arg7 = m ((c : Thread nD τ).loc main_arg7) :=
  V_kept m c main_arg7 (by decide) (by decide) (by decide) (by decide) (by decide) (by decide)
theorem V_main_arg8 (c : Dev nD) : V m c main_arg8 = m ((c : Thread nD τ).loc main_arg8) :=
  V_kept m c main_arg8 (by decide) (by decide) (by decide) (by decide) (by decide) (by decide)
theorem V_main_arg9 (c : Dev nD) : V m c main_arg9 = m ((c : Thread nD τ).loc main_arg9) :=
  V_kept m c main_arg9 (by decide) (by decide) (by decide) (by decide) (by decide) (by decide)
theorem V_main_arg10 (c : Dev nD) : V m c main_arg10 = m ((c : Thread nD τ).loc main_arg10) :=
  V_kept m c main_arg10 (by decide) (by decide) (by decide) (by decide) (by decide) (by decide)
theorem V_main_arg11 (c : Dev nD) : V m c main_arg11 = m ((c : Thread nD τ).loc main_arg11) :=
  V_kept m c main_arg11 (by decide) (by decide) (by decide) (by decide) (by decide) (by decide)
theorem V_main_arg12 (c : Dev nD) : V m c main_arg12 = m ((c : Thread nD τ).loc main_arg12) :=
  V_kept m c main_arg12 (by decide) (by decide) (by decide) (by decide) (by decide) (by decide)
theorem V_main_arg13 (c : Dev nD) : V m c main_arg13 = m ((c : Thread nD τ).loc main_arg13) :=
  V_kept m c main_arg13 (by decide) (by decide) (by decide) (by decide) (by decide) (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (where it is not
    fetched its block index has not moved), for any proof data over these arrays whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame run's post read at the fourteen arguments: `x` and `z` are staged inputs, never written back; the other
    twelve are staged by no window. -/
theorem kept_of_post (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  ⟨((h c).1 1).trans (((dats 0 c).arrAt_in 1 rfl _).trans ((hA c 1).trans (V_main_arg0 m c))),
      ((h c).1 0).trans (((dats 0 c).arrAt_in 0 rfl _).trans ((hA c 0).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c)⟩

/-- So a frame run of any proof data over these arrays is the frame claim's run. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => kept_of_post m dats hA r h c) h

/-! ## The body's accesses and what it leaves in the result buffers -/

abbrev rT : Rect S512x512 := Rect.unit (s := S512x512) ![0, 0] S512x512.size inb_S512x512_S512x512_0_0
abbrev rW : Rect S2048x512 := Rect.unit (s := S2048x512) ![0, 0] S2048x512.size inb_S2048x512_S2048x512_0_0
abbrev rB : Rect S1x2048 := Rect.unit (s := S1x2048) ![0, 0] S1x2048.size inb_S1x2048_S1x2048_0_0

/-- Window 5's buffer (the next hidden state's tile) after the body: its one store over the whole buffer. -/
def outH (x0 x1 : Vec F S512x512 .f32) (x2 x3 : Vec F S2048x512 .bf16) (x4 : Vec F S1x2048 .f32) : Vec F S512x512 .f32 :=
  View.canon [⟨rT, k0_pay3 (View.ld x0 rT) (View.ld x1 rT) (View.ld x2 rW) (View.ld x3 rW) (View.ld x4 rB)⟩]

/-- Window 6's buffer (the next cell state's tile) after the body: its one store over the whole buffer. -/
def outC (x0 x1 : Vec F S512x512 .f32) (x2 x3 : Vec F S2048x512 .bf16) (x4 : Vec F S1x2048 .f32) : Vec F S512x512 .f32 :=
  View.canon [⟨rT, k0_pay2 (View.ld x0 rT) (View.ld x1 rT) (View.ld x2 rW) (View.ld x3 rW) (View.ld x4 rB)⟩]

/-- A store over the whole 512 × 512 buffer covers it. -/
theorem coverT (p0 : Vec F S512x512 .f32) (y : S512x512.Idx) :
    ∃ pc ∈ ([⟨rT, p0⟩] : List (View.Piece (Elt F) S512x512 .f32)), y ∈ pc.1.set :=
  View.cover_of_tiled [⟨rT, p0⟩] S512x512.size (by rfl) y

/-! ## The body's triple -/

set_option maxHeartbeats 4000000 in
/-- The body on whole staging memrefs, the five inputs' at contents `x0 … x4` and the two results' at anything, runs
    to a continuation that is given the inputs' as they were and the results' at `outH`, `outC` of the inputs'. -/
theorem sound_kernel (c : Dev nD) (E : Set ℕ) (i : grid0.Coords)
    (arg1 : Memref sig .tc .vmem S512x512 .f32) (harg1 : arg1.IsWhole) (arg2 : Memref sig .tc .vmem S512x512 .f32) (harg2 : arg2.IsWhole)
    (arg3 : Memref sig .tc .vmem S2048x512 .bf16) (harg3 : arg3.IsWhole) (arg4 : Memref sig .tc .vmem S2048x512 .bf16) (harg4 : arg4.IsWhole)
    (arg5 : Memref sig .tc .vmem S1x2048 .f32) (harg5 : arg5.IsWhole)
    (arg6 : Memref sig .tc .vmem S512x512 .f32) (harg6 : arg6.IsWhole) (arg7 : Memref sig .tc .vmem S512x512 .f32) (harg7 : arg7.IsWhole)
    (x0 x1 : Vec F S512x512 .f32) (x2 x3 : Vec F S2048x512 .bf16) (x4 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outH x0 x1 x2 x3 x4) ∗ owns (c : Thread nD τ) arg7 fullShare (outC x0 x1 x2 x3 x4)) -∗ K ⟨⟩))
      ⊢ wp frame (wpE (defs₀ (F := F)) Variants.none c none) E
          (cc0__lstm_cell_kernel i arg1 harg1 arg2 harg2 arg3 harg3 arg4 harg4 arg5 harg5 arg6 harg6 arg7 harg7) K := by
  simp only [cc0__lstm_cell_kernel_eq_skeleton]; unfold cc0__lstm_cell_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverT _)
  iexists _; isplitr
  swap; · iexact H6
  ipureintro
  exact View.read_writes_eq_canon _ _ _ (coverT _)

/-! ## The pipeline's proof data -/

/-- The proof data of the pipeline on core `c`: the arrays as the region finds them; after the body at point `t` each
    input's buffer at its block and each result's at `outH` / `outC` of the five input blocks; the invariant the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outH (iblk m c 0 t) (iblk m c 1 t) (iblk m c 2 t) (iblk m c 3 t) (iblk m c 4 t)
    | ⟨6, _⟩ => outC (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = outH (iblk m c 0 t) (iblk m c 1 t) (iblk m c 2 t) (iblk m c 3 t) (iblk m c 4 t) := by dsimp only [dats]
theorem after0_6 (c : Dev nD) (t : Fin cfg0.N) :
    (dats m 0 c).after 6 t = outC (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' memrefs hold their blocks, so `sound_kernel` applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what
    the write-backs make of the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and its fourteen arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

end Cert.KernelIdeal.Fr

end
-- ==== Proof.Spec.lean ====
/-
  The LSTM cell as one function of its fourteen argument arrays, over the extended reals.

  For a batch row `r` and a hidden unit `h`, gate `g` (input, forget, cell, output) has the pre-activation
      gate x z W_g U_g b_g r h = (Σ_k x[r,k]·W_g[h,k] + Σ_k z[r,k]·U_g[h,k]) + b_g[h],
  the next cell state is  c'[r,h] = σ(forget)·z[r,h] + σ(input)·tanh(cell)  and the next hidden state is
  h'[r,h] = σ(output)·tanh(c'[r,h]),  with σ the logistic function `1 / (1 + e⁻ˣ)` and every operation the exact one
  on the extended reals.

  The same arithmetic is also stated for ONE batch tile of 512 rows against the four weight matrices stacked along the
  rows into a [2048, 512] matrix and the four biases laid side by side into a [1, 2048] row (`gateTile`, `cellTile`,
  `hiddenTile`): gate `g`'s row `h` of the stacked matrix is row `512·g + h`.
-/
import Idealize.ShloMosaic.PureOps.Ideal
import Idealize.ShloMosaic.Lib.ValueIdx

noncomputable section

namespace Cert.Lstm

open Idealize.ShloMosaic Idealize.ShloMosaic.ValueIdx

/-- The batch-by-feature arrays `x`, `z` and both results. -/
abbrev SB : Shape := ⟨2, ![16384, 512]⟩
/-- One gate's weight matrix, [out, in]. -/
abbrev SW : Shape := ⟨2, ![512, 512]⟩
/-- One gate's bias. -/
abbrev Sb : Shape := ⟨1, ![512]⟩
/-- The four gates' weight matrices stacked along the rows. -/
abbrev SW4 : Shape := ⟨2, ![2048, 512]⟩
/-- The four gates' biases side by side, as one row. -/
abbrev Sb4 : Shape := ⟨2, ![1, 2048]⟩

/-- Row `512·g + h` of a stack of four 512-row matrices: gate `g`'s row `h`. -/
abbrev stackRow (g : Fin 4) (h : Fin 512) : Fin 2048 := ⟨512 * g.val + h.val, by omega⟩

/-! ## The whole arrays -/

/-- Gate pre-activation at batch row `r`, hidden unit `h`: `(x·Wᵀ + z·Uᵀ) + b`. -/
def gate (x z : SB.Idx → EReal) (W U : SW.Idx → EReal) (b : Sb.Idx → EReal) (r : Fin 16384) (h : Fin 512) : EReal :=
  (∑ k : Fin 512, x (ix2 r k) * W (ix2 h k) + ∑ k : Fin 512, z (ix2 r k) * U (ix2 h k)) + b (ix1 h)

/-- The next cell state `c' = σ(f)·z + σ(i)·tanh(g)` at `(r, h)`. -/
def cellAt (z x : SB.Idx → EReal) (Wi Wf Wc Wo : SW.Idx → EReal) (bi bf bc bo : Sb.Idx → EReal) (Ui Uf Uc Uo : SW.Idx → EReal)
    (r : Fin 16384) (h : Fin 512) : EReal :=
  Ideal.logistic (gate x z Wf Uf bf r h) * z (ix2 r h) + Ideal.logistic (gate x z Wi Ui bi r h) * Ideal.tanh (gate x z Wc Uc bc r h)

/-- The next hidden state `h' = σ(o)·tanh(c')` at `(r, h)`. -/
def hiddenAt (z x : SB.Idx → EReal) (Wi Wf Wc Wo : SW.Idx → EReal) (bi bf bc bo : Sb.Idx → EReal) (Ui Uf Uc Uo : SW.Idx → EReal)
    (r : Fin 16384) (h : Fin 512) : EReal :=
  Ideal.logistic (gate x z Wo Uo bo r h) * Ideal.tanh (cellAt z x Wi Wf Wc Wo bi bf bc bo Ui Uf Uc Uo r h)

/-- The next cell state as an array. -/
def cellArr (z x : SB.Idx → EReal) (Wi Wf Wc Wo : SW.Idx → EReal) (bi bf bc bo : Sb.Idx → EReal) (Ui Uf Uc Uo : SW.Idx → EReal) :
    SB.Idx → EReal := fun j => cellAt z x Wi Wf Wc Wo bi bf bc bo Ui Uf Uc Uo (j 0) (j 1)

/-- The next hidden state as an array. -/
def hiddenArr (z x : SB.Idx → EReal) (Wi Wf Wc Wo : SW.Idx → EReal) (bi bf bc bo : Sb.Idx → EReal) (Ui Uf Uc Uo : SW.Idx → EReal) :
    SB.Idx → EReal := fun j => hiddenAt z x Wi Wf Wc Wo bi bf bc bo Ui Uf Uc Uo (j 0) (j 1)

/-! ## One batch tile against the stacked weights -/

/-- Gate `g`'s pre-activation at row `p` of a 512-row tile, hidden unit `q`, against the stacked matrices and the bias row. -/
def gateTile (xb zb : SW.Idx → EReal) (w u : SW4.Idx → EReal) (bb : Sb4.Idx → EReal) (g : Fin 4) (p q : Fin 512) : EReal :=
  (∑ k : Fin 512, xb (ix2 p k) * w (ix2 (stackRow g q) k) + ∑ k : Fin 512, zb (ix2 p k) * u (ix2 (stackRow g q) k))
    + bb (ix2 (0 : Fin 1) (stackRow g q))

/-- The tile's next cell state at `(p, q)`: gates in the order input 0, forget 1, cell 2, output 3. -/
def cellTile (xb zb : SW.Idx → EReal) (w u : SW4.Idx → EReal) (bb : Sb4.Idx → EReal) (p q : Fin 512) : EReal :=
  Ideal.logistic (gateTile xb zb w u bb 1 p q) * zb (ix2 p q)
    + Ideal.logistic (gateTile xb zb w u bb 0 p q) * Ideal.tanh (gateTile xb zb w u bb 2 p q)

/-- The tile's next hidden state at `(p, q)`. -/
def hiddenTile (xb zb : SW.Idx → EReal) (w u : SW4.Idx → EReal) (bb : Sb4.Idx → EReal) (p q : Fin 512) : EReal :=
  Ideal.logistic (gateTile xb zb w u bb 3 p q) * Ideal.tanh (cellTile xb zb w u bb p q)

end Cert.Lstm

end
-- ==== Proof.SpecBridge.lean ====
/-
  One batch tile against the stacked weights is the whole-array cell at that tile's rows.

  If a tile's `x` and `z` rows are rows of the whole arrays (row `p` of the tile is row `r` of the array), if row
  `512·g + h` of each stacked matrix is row `h` of gate `g`'s matrix, and if entry `512·g + h` of the bias row is entry
  `h` of gate `g`'s bias, then the tile's gates, cell state and hidden state at `(p, h)` are the whole arrays' at `(r, h)`:
  the two sides are the same sums term by term.
-/
import proofs.«174672_j5557687681205_1_alg».proof.Proof.Spec

noncomputable section

namespace Cert.Lstm

open Idealize.ShloMosaic Idealize.ShloMosaic.ValueIdx

variable (xb zb : SW.Idx → EReal) (w u : SW4.Idx → EReal) (bb : Sb4.Idx → EReal)
variable (z x : SB.Idx → EReal) (Wi Wf Wc Wo : SW.Idx → EReal) (bi bf bc bo : Sb.Idx → EReal) (Ui Uf Uc Uo : SW.Idx → EReal)

/-- One gate: the tile's pre-activation is the array's, given the tile's rows and that gate's rows of the stacks. -/
theorem gateTile_eq (g : Fin 4) (W U : SW.Idx → EReal) (b : Sb.Idx → EReal) (r : Fin 16384) (p h : Fin 512)
    (hx : ∀ k, xb (ix2 p k) = x (ix2 r k)) (hz : ∀ k, zb (ix2 p k) = z (ix2 r k))
    (hw : ∀ k, w (ix2 (stackRow g h) k) = W (ix2 h k)) (hu : ∀ k, u (ix2 (stackRow g h) k) = U (ix2 h k))
    (hb : bb (ix2 (0 : Fin 1) (stackRow g h)) = b (ix1 h)) :
    gateTile xb zb w u bb g p h = gate x z W U b r h := by
  unfold gateTile gate
  simp only [hx, hz, hw, hu, hb]

/-- The stacks' rows, gate by gate: what the four matrices and the four biases are to the stacked ones. -/
structure Stacked : Prop where
  w0 : ∀ h k, w (ix2 (stackRow 0 h) k) = Wi (ix2 h k)
  w1 : ∀ h k, w (ix2 (stackRow 1 h) k) = Wf (ix2 h k)
  w2 : ∀ h k, w (ix2 (stackRow 2 h) k) = Wc (ix2 h k)
  w3 : ∀ h k, w (ix2 (stackRow 3 h) k) = Wo (ix2 h k)
  u0 : ∀ h k, u (ix2 (stackRow 0 h) k) = Ui (ix2 h k)
  u1 : ∀ h k, u (ix2 (stackRow 1 h) k) = Uf (ix2 h k)
  u2 : ∀ h k, u (ix2 (stackRow 2 h) k) = Uc (ix2 h k)
  u3 : ∀ h k, u (ix2 (stackRow 3 h) k) = Uo (ix2 h k)
  b0 : ∀ h, bb (ix2 (0 : Fin 1) (stackRow 0 h)) = bi (ix1 h)
  b1 : ∀ h, bb (ix2 (0 : Fin 1) (stackRow 1 h)) = bf (ix1 h)
  b2 : ∀ h, bb (ix2 (0 : Fin 1) (stackRow 2 h)) = bc (ix1 h)
  b3 : ∀ h, bb (ix2 (0 : Fin 1) (stackRow 3 h)) = bo (ix1 h)

variable {xb zb w u bb z x Wi Wf Wc Wo bi bf bc bo Ui Uf Uc Uo}

/-- The tile's next cell state at `(p, h)` is the array's at `(r, h)`. -/
theorem cellTile_eq (S : Stacked w u bb Wi Wf Wc Wo bi bf bc bo Ui Uf Uc Uo) (r : Fin 16384) (p h : Fin 512)
    (hx : ∀ k, xb (ix2 p k) = x (ix2 r k)) (hz : ∀ k, zb (ix2 p k) = z (ix2 r k)) :
    cellTile xb zb w u bb p h = cellAt z x Wi Wf Wc Wo bi bf bc bo Ui Uf Uc Uo r h := by
  unfold cellTile cellAt
  rw [gateTile_eq xb zb w u bb z x 1 Wf Uf bf r p h hx hz (S.w1 h) (S.u1 h) (S.b1 h),
    gateTile_eq xb zb w u bb z x 0 Wi Ui bi r p h hx hz (S.w0 h) (S.u0 h) (S.b0 h),
    gateTile_eq xb zb w u bb z x 2 Wc Uc bc r p h hx hz (S.w2 h) (S.u2 h) (S.b2 h), hz h]

/-- The tile's next hidden state at `(p, h)` is the array's at `(r, h)`. -/
theorem hiddenTile_eq (S : Stacked w u bb Wi Wf Wc Wo bi bf bc bo Ui Uf Uc Uo) (r : Fin 16384) (p h : Fin 512)
    (hx : ∀ k, xb (ix2 p k) = x (ix2 r k)) (hz : ∀ k, zb (ix2 p k) = z (ix2 r k)) :
    hiddenTile xb zb w u bb p h = hiddenAt z x Wi Wf Wc Wo bi bf bc bo Ui Uf Uc Uo r h := by
  unfold hiddenTile hiddenAt
  rw [gateTile_eq xb zb w u bb z x 3 Wo Uo bo r p h hx hz (S.w3 h) (S.u3 h) (S.b3 h), cellTile_eq S r p h hx hz]

end Cert.Lstm

end
-- ==== Proof.TileValue.lean ====
/-
  The kernel body's arithmetic read at one element of a batch tile.

  The body forms the [512, 2048] pre-activation  x·wᵀ + z·uᵀ + b  (two contractions over the 512 features against the
  stacked [2048, 512] weight matrices, the bias row added to every row), cuts it into four [512, 512] lane bands at
  columns 0, 512, 1024, 1536 (gates input, forget, cell, output), and combines them as
      c' = σ(forget)·z + σ(input)·tanh(cell),   h' = σ(output)·tanh(c').
  Here each of these is read at row `p` and hidden unit `q`: column `512·g + q` of the pre-activation is gate `g`'s
  pre-activation at `(p, q)` as the specification spells it (the narrowing of x and z to the weights' format is the
  identity on the extended reals, and the matrix product into a zero accumulator is the plain sum of products).
-/
import proofs.«174672_j5557687681205_1_alg».proof.Proof.Gen.KernelIdeal.Skeleton
import proofs.«174672_j5557687681205_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.Lstm.Tile

open Cert.KernelIdeal Cert.KernelIdeal.Gen Idealize.ShloMosaic Idealize.ShloMosaic.ValueIdx

/-! ## The contraction's operand indices

At output index `(p, n)` and contraction position `k` the left operand is read at `(p, k)` and the right one at `(n, k)`:
both operands are contracted along their second axis. One lemma per operand axis. -/

theorem lhs_axis0 (i : S512x2048.Idx) (c : dot_S512x512_S2048x512_S512x2048_1_1_0_0_n_n.contr.Idx) :
    (dot_S512x512_S2048x512_S512x2048_1_1_0_0_n_n.lhsIdx i c 0).val = (i 0).val := by
  unfold DotDims.lhsIdx
  rw [dif_neg (show ¬(0 : Fin S512x512.rank) ∈ dot_S512x512_S2048x512_S512x2048_1_1_0_0_n_n.lhsBatch by decide), dif_pos (show (0 : Fin S512x512.rank) ∈ dot_S512x512_S2048x512_S512x2048_1_1_0_0_n_n.lhsNonContracting by decide)]
  rfl

theorem lhs_axis1 (i : S512x2048.Idx) (c : dot_S512x512_S2048x512_S512x2048_1_1_0_0_n_n.contr.Idx) :
    (dot_S512x512_S2048x512_S512x2048_1_1_0_0_n_n.lhsIdx i c 1).val = (c ⟨0, by decide⟩).val :=
  dot_S512x512_S2048x512_S512x2048_1_1_0_0_n_n.lhsIdx_val_of_single rfl i c

theorem rhs_axis0 (i : S512x2048.Idx) (c : dot_S512x512_S2048x512_S512x2048_1_1_0_0_n_n.contr.Idx) :
    (dot_S512x512_S2048x512_S512x2048_1_1_0_0_n_n.rhsIdx i c 0).val = (i 1).val := by
  unfold DotDims.rhsIdx
  rw [dif_neg (show ¬(0 : Fin S2048x512.rank) ∈ dot_S512x512_S2048x512_S512x2048_1_1_0_0_n_n.rhsBatch by decide), dif_pos (show (0 : Fin S2048x512.rank) ∈ dot_S512x512_S2048x512_S512x2048_1_1_0_0_n_n.rhsNonContracting by decide)]
  rfl

theorem rhs_axis1 (i : S512x2048.Idx) (c : dot_S512x512_S2048x512_S512x2048_1_1_0_0_n_n.contr.Idx) :
    (dot_S512x512_S2048x512_S512x2048_1_1_0_0_n_n.rhsIdx i c 1).val = (c ⟨0, by decide⟩).val :=
  dot_S512x512_S2048x512_S512x2048_1_1_0_0_n_n.rhsIdx_val_of_single rfl i c

/-! ## The matrix product into a zero accumulator -/

/-- Entry `(p, n)` of `a·bᵀ` accumulated into zero: the sum over the 512 features of `a[p,k]·b[n,k]`. -/
theorem matmul_at (a : FVec Ideal S512x512 .bf16) (b : FVec Ideal S2048x512 .bf16) (p : Fin 512) (n : Fin 2048) :
    matmul (F := Ideal) dot_S512x512_S2048x512_S512x2048_1_1_0_0_n_n none a b (constant (F := Ideal) S512x2048 .f32 0x00000000#32) (ix2 p n)
      = ∑ k : Fin 512, a (ix2 p k) * b (ix2 n k) := by
  simp only [matmul]
  rw [Ideal.matmul_constant_zero_apply, ← Equiv.sum_comp (contrEquiv1 dot_S512x512_S2048x512_S512x2048_1_1_0_0_n_n 512 rfl rfl).symm]
  refine Finset.sum_congr rfl fun k _ => ?_
  have hk := contrEquiv1_symm_val dot_S512x512_S2048x512_S512x2048_1_1_0_0_n_n 512 rfl rfl k
  have el : dot_S512x512_S2048x512_S512x2048_1_1_0_0_n_n.lhsIdx (ix2 p n) ((contrEquiv1 dot_S512x512_S2048x512_S512x2048_1_1_0_0_n_n 512 rfl rfl).symm k) = ix2 p k := funext fun ax => Fin.ext (by
    match ax with
    | ⟨0, _⟩ => exact lhs_axis0 _ _
    | ⟨1, _⟩ => exact (lhs_axis1 _ _).trans hk)
  have er : dot_S512x512_S2048x512_S512x2048_1_1_0_0_n_n.rhsIdx (ix2 p n) ((contrEquiv1 dot_S512x512_S2048x512_S512x2048_1_1_0_0_n_n 512 rfl rfl).symm k) = ix2 n k := funext fun ax => Fin.ext (by
    match ax with
    | ⟨0, _⟩ => exact rhs_axis0 _ _
    | ⟨1, _⟩ => exact (rhs_axis1 _ _).trans hk)
  rw [el, er]

/-! ## The pre-activation -/

/-- Column `n` of the pre-activation at row `p`: `(Σ_k x[p,k]·w[n,k] + Σ_k z[p,k]·u[n,k]) + b[n]`. -/
theorem preact_at (x0 x1 : Vec Ideal S512x512 .f32) (w u : Vec Ideal S2048x512 .bf16) (bb : Vec Ideal S1x2048 .f32)
    (p : Fin 512) (n : Fin 2048) :
    k0_pay1 (F := Ideal) x0 x1 w u bb (ix2 p n)
      = (∑ k : Fin 512, x0 (ix2 p k) * w (ix2 n k) + ∑ k : Fin 512, x1 (ix2 p k) * u (ix2 n k)) + bb (ix2 (0 : Fin 1) n) := by
  unfold k0_pay1
  refine (addf_apply _ _ _).trans ?_
  refine congrArg₂ (· + ·) ((addf_apply _ _ _).trans (congrArg₂ (· + ·) ?_ ?_)) ?_
  · rw [shapeCast_self]
    exact matmul_at _ _ p n
  · rw [shapeCast_self]
    exact matmul_at _ _ p n
  · rw [shapeCast_self]
    exact broadcastTo_1b_ab_apply _ _ p n

/-- Column `512·g + q` of the pre-activation is gate `g`'s pre-activation at `(p, q)`. -/
theorem gate_at (x0 x1 : Vec Ideal S512x512 .f32) (w u : Vec Ideal S2048x512 .bf16) (bb : Vec Ideal S1x2048 .f32)
    (g : Fin 4) (p q : Fin 512) :
    k0_pay1 (F := Ideal) x0 x1 w u bb (ix2 p (Cert.Lstm.stackRow g q)) = Cert.Lstm.gateTile x0 x1 w u bb g p q :=
  preact_at x0 x1 w u bb p (Cert.Lstm.stackRow g q)

/-! ## The four lane bands -/

/-- The band of 512 columns that starts at column `o = 512·g`, read at `(p, q)`, is gate `g`'s pre-activation there. -/
theorem band_at (x0 x1 : Vec Ideal S512x512 .f32) (w u : Vec Ideal S2048x512 .bf16) (bb : Vec Ideal S1x2048 .f32)
    (g : Fin 4) (o : Nat) (h : S512x2048.Slices ![0, o] S512x512) (ho : o = 512 * g.val) (p q : Fin 512) :
    extractStridedSlice S512x512 ![0, o] (k0_pay1 (F := Ideal) x0 x1 w u bb) h (ix2 p q)
      = Cert.Lstm.gateTile x0 x1 w u bb g p q :=
  (slice2_axis1_apply o _ h p q (Cert.Lstm.stackRow g q) (by show 512 * g.val + q.val = o + q.val; omega)).trans
    (gate_at x0 x1 w u bb g p q)

/-! ## The next cell state and the next hidden state -/

/-- The stored cell state at `(p, q)`: `σ(forget)·z + σ(input)·tanh(cell)`. -/
theorem cell_at (x0 x1 : Vec Ideal S512x512 .f32) (w u : Vec Ideal S2048x512 .bf16) (bb : Vec Ideal S1x2048 .f32) (p q : Fin 512) :
    k0_pay2 (F := Ideal) x0 x1 w u bb (ix2 p q) = Cert.Lstm.cellTile x0 x1 w u bb p q := by
  unfold k0_pay2 Cert.Lstm.cellTile
  refine (addf_apply _ _ _).trans (congrArg₂ (· + ·) ?_ ?_)
  · refine (mulf_apply _ _ _).trans (congrArg₂ (· * ·) ?_ rfl)
    exact congrArg Ideal.logistic (band_at x0 x1 w u bb 1 512 _ rfl p q)
  · refine (mulf_apply _ _ _).trans (congrArg₂ (· * ·) ?_ ?_)
    · exact congrArg Ideal.logistic (band_at x0 x1 w u bb 0 0 _ rfl p q)
    · exact congrArg Ideal.tanh (band_at x0 x1 w u bb 2 1024 _ rfl p q)

/-- The stored hidden state at `(p, q)`: `σ(output)·tanh(c')`. -/
theorem hidden_at (x0 x1 : Vec Ideal S512x512 .f32) (w u : Vec Ideal S2048x512 .bf16) (bb : Vec Ideal S1x2048 .f32) (p q : Fin 512) :
    k0_pay3 (F := Ideal) x0 x1 w u bb (ix2 p q) = Cert.Lstm.hiddenTile x0 x1 w u bb p q := by
  unfold k0_pay3 Cert.Lstm.hiddenTile
  refine (mulf_apply _ _ _).trans (congrArg₂ (· * ·) ?_ ?_)
  · exact congrArg Ideal.logistic (band_at x0 x1 w u bb 3 1536 _ rfl p q)
  · exact congrArg Ideal.tanh (cell_at x0 x1 w u bb p q)

end Cert.Lstm.Tile

end
-- ==== Proof.KernelValue.lean ====
/-
  What the idealized kernel program's two result arrays hold after the run: the next hidden state and the next cell
  state of the fourteen arguments, as whole arrays.

  Before the region the host stacks the four input-weight matrices along the rows (row `512·g + q` of the stack is row
  `q` of gate `g`'s matrix; the change of float format that follows is the identity on the extended reals), the four
  hidden-weight matrices likewise, and the four biases end to end, reshaped to one row. At grid point `t` the body is
  handed rows `512·t … 512·t + 511` of `x` and `z` and the three stacks whole, and stores over each result tile ONE
  value; at `(p, q)` that value is the tile's cell arithmetic, which is the whole arrays' at row `512·t + p`. So what
  point `t` writes back is block `t` of the whole-array result; the 32 blocks cover the array (row `r` lies in block
  `r / 512`); hence each result array IS that function of the arguments.
-/
import proofs.«174672_j5557687681205_1_alg».proof.Proof.FrameIdeal
import proofs.«174672_j5557687681205_1_alg».proof.Proof.SpecBridge
import proofs.«174672_j5557687681205_1_alg».proof.Proof.TileValue
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Val

open Cert.KernelIdeal Cert.KernelIdeal.Gen Cert.KernelIdeal.Fr Idealize.ShloMosaic Idealize.ShloMosaic.TcCoe Idealize.SL.Sem
open Idealize.ShloMosaic.Pipeline (Dat)
open Idealize.ShloMosaic.ValueIdx
open Cert.Lstm (stackRow)

/-! ## Stacks read at an index -/

/-- Four 512-row matrices stacked along the rows, read at row `512·g + q`: matrix `g` at row `q`. -/
theorem stackW_apply {α : Type} (a0 a1 a2 a3 : S512x512.Idx → α)
    (h : Shape.Concatenates [S512x512, S512x512, S512x512, S512x512] S2048x512 0) (g : Fin 4) (q k : Fin 512) :
    concatenate S2048x512 0 [⟨S512x512, a0⟩, ⟨S512x512, a1⟩, ⟨S512x512, a2⟩, ⟨S512x512, a3⟩] h (ix2 (stackRow g q) k)
      = (![a0, a1, a2, a3] g) (ix2 q k) := by
  refine concatenate_ofFn_apply (t := S2048x512) (s₁ := S512x512) (0 : Fin 2) ![a0, a1, a2, a3] h rfl 512 rfl
    (ix2 (stackRow g q) k) g ?_ (ix2 q k) ?_ ?_
  · show (512 * g.val + q.val) / 512 = g.val
    have := q.isLt; omega
  · show q.val = (512 * g.val + q.val) % 512
    have := q.isLt; omega
  · intro b hb
    match b with
    | ⟨0, _⟩ => exact absurd rfl hb
    | ⟨1, _⟩ => rfl

/-- The same after the change of float format, which is the identity on the extended reals. -/
theorem stackWt_apply (a0 a1 a2 a3 : S512x512.Idx → EReal)
    (h : Shape.Concatenates [S512x512, S512x512, S512x512, S512x512] S2048x512 0) (hlt : FTy.bits .bf16 < FTy.bits .f32)
    (g : Fin 4) (q k : Fin 512) :
    (truncf (F := Ideal) .bf16 (concatenate S2048x512 0 [⟨S512x512, a0⟩, ⟨S512x512, a1⟩, ⟨S512x512, a2⟩, ⟨S512x512, a3⟩] h) hlt
        : S2048x512.Idx → EReal) (ix2 (stackRow g q) k)
      = (![a0, a1, a2, a3] g) (ix2 q k) :=
  stackW_apply a0 a1 a2 a3 h g q k

/-- Four 512-entry vectors laid end to end, read at entry `512·g + q`: vector `g` at entry `q`. -/
theorem stackB_apply {α : Type} (a0 a1 a2 a3 : S512.Idx → α)
    (h : Shape.Concatenates [S512, S512, S512, S512] S2048 0) (g : Fin 4) (q : Fin 512) :
    concatenate S2048 0 [⟨S512, a0⟩, ⟨S512, a1⟩, ⟨S512, a2⟩, ⟨S512, a3⟩] h (ix1 (stackRow g q))
      = (![a0, a1, a2, a3] g) (ix1 q) := by
  refine concatenate_ofFn_apply (t := S2048) (s₁ := S512) (0 : Fin 1) ![a0, a1, a2, a3] h rfl 512 rfl
    (ix1 (stackRow g q)) g ?_ (ix1 q) ?_ ?_
  · show (512 * g.val + q.val) / 512 = g.val
    have := q.isLt; omega
  · show q.val = (512 * g.val + q.val) % 512
    have := q.isLt; omega
  · intro b hb
    match b with
    | ⟨0, _⟩ => exact absurd rfl hb

/-- A 2048-entry vector reshaped to one row, read at `(0, j)`: the vector at `j`. -/
theorem rowOf_apply {α : Type} (v : S2048.Idx → α) (h : S2048.ShapeCasts S1x2048) (j : Fin 2048) :
    shapeCast S1x2048 v h (ix2 (0 : Fin 1) j) = v (ix1 j) := by
  refine shapeCast_apply v h (ix2 (0 : Fin 1) j) (ix1 j) ?_
  rw [Shape.rowMajor_val_one, Shape.rowMajor_val_two]
  show j.val = 0 * 2048 + j.val
  omega

variable (m : (ℓ : Loc nD τ sig) → Buf (Elt Ideal) ℓ) (ρ : Dev nD → PrngReg)

/-! ## What the host operations leave in the three stacked buffers -/

theorem V_v1 (c : Dev nD) : (V m c main_v1 : S2048x512.Idx → EReal) =
    truncf (F := Ideal) .bf16 (concatenate S2048x512 0 [⟨S512x512, m ((c : Thread nD τ).loc main_arg2)⟩, ⟨S512x512, m ((c : Thread nD τ).loc main_arg3)⟩, ⟨S512x512, m ((c : Thread nD τ).loc main_arg4)⟩, ⟨S512x512, m ((c : Thread nD τ).loc main_arg5)⟩] concatenates_S512x512_S512x512_S512x512_S512x512_S2048x512_d0) bitsLt_bf16_f32 := by
  dsimp only [V, hostOps0]
  after_results
  rfl

theorem V_v3 (c : Dev nD) : (V m c main_v3 : S2048x512.Idx → EReal) =
    truncf (F := Ideal) .bf16 (concatenate S2048x512 0 [⟨S512x512, m ((c : Thread nD τ).loc main_arg10)⟩, ⟨S512x512, m ((c : Thread nD τ).loc main_arg11)⟩, ⟨S512x512, m ((c : Thread nD τ).loc main_arg12)⟩, ⟨S512x512, m ((c : Thread nD τ).loc main_arg13)⟩] concatenates_S512x512_S512x512_S512x512_S512x512_S2048x512_d0) bitsLt_bf16_f32 := by
  dsimp only [V, hostOps0]
  after_results
  rfl

theorem V_v5 (c : Dev nD) : (V m c main_v5 : S1x2048.Idx → EReal) =
    shapeCast S1x2048 (concatenate S2048 0 [⟨S512, m ((c : Thread nD τ).loc main_arg6)⟩, ⟨S512, m ((c : Thread nD τ).loc main_arg7)⟩, ⟨S512, m ((c : Thread nD τ).loc main_arg8)⟩, ⟨S512, m ((c : Thread nD τ).loc main_arg9)⟩] concatenates_S512_S512_S512_S512_S2048_d0) shapeCasts_S2048_S1x2048 := by
  dsimp only [V, hostOps0]
  after_results
  rfl

/-- Row `512·g + q` of the stacked input weights is row `q` of gate `g`'s matrix (the change of format is the identity). -/
theorem V_v1_at (c : Dev nD) (g : Fin 4) (q k : Fin 512) :
    (V m c main_v1 : S2048x512.Idx → EReal) (ix2 (stackRow g q) k)
      = (![m ((c : Thread nD τ).loc main_arg2), m ((c : Thread nD τ).loc main_arg3), m ((c : Thread nD τ).loc main_arg4), m ((c : Thread nD τ).loc main_arg5)] g : S512x512.Idx → EReal) (ix2 q k) := by
  rw [V_v1]
  exact stackWt_apply _ _ _ _ _ _ g q k

theorem V_v3_at (c : Dev nD) (g : Fin 4) (q k : Fin 512) :
    (V m c main_v3 : S2048x512.Idx → EReal) (ix2 (stackRow g q) k)
      = (![m ((c : Thread nD τ).loc main_arg10), m ((c : Thread nD τ).loc main_arg11), m ((c : Thread nD τ).loc main_arg12), m ((c : Thread nD τ).loc main_arg13)] g : S512x512.Idx → EReal) (ix2 q k) := by
  rw [V_v3]
  exact stackWt_apply _ _ _ _ _ _ g q k

theorem V_v5_at (c : Dev nD) (g : Fin 4) (q : Fin 512) :
    (V m c main_v5 : S1x2048.Idx → EReal) (ix2 (0 : Fin 1) (stackRow g q))
      = (![m ((c : Thread nD τ).loc main_arg6), m ((c : Thread nD τ).loc main_arg7), m ((c : Thread nD τ).loc main_arg8), m ((c : Thread nD τ).loc main_arg9)] g : S512.Idx → EReal) (ix1 q) := by
  rw [V_v5, rowOf_apply]
  exact stackB_apply _ _ _ _ _ g q

/-! ## The blocks the body is handed, at an index -/

/-- The printed index maps, decided over the 32 grid points: the batch windows (`x`, `z` and both results) are at block
    row `t`, the three stacked buffers at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem t_lt (t : Fin cfg0.N) : t.val < 32 := lt_of_lt_of_eq t.isLt N_0

/-- Row `p` of batch tile `t` is row `512·t + p` of the batch. -/
def rowOf (t : Fin cfg0.N) (p : Fin 512) : Fin 16384 := ⟨512 * t.val + p.val, by have := t_lt t; have := p.isLt; omega⟩

abbrev xblk (c : Dev nD) (t : Fin cfg0.N) : S512x512.Idx → EReal := iblk m c 0 t
abbrev zblk (c : Dev nD) (t : Fin cfg0.N) : S512x512.Idx → EReal := iblk m c 1 t
abbrev wblk (c : Dev nD) (t : Fin cfg0.N) : S2048x512.Idx → EReal := iblk m c 2 t
abbrev ublk (c : Dev nD) (t : Fin cfg0.N) : S2048x512.Idx → EReal := iblk m c 3 t
abbrev bblk (c : Dev nD) (t : Fin cfg0.N) : S1x2048.Idx → EReal := iblk m c 4 t

/-- Tile `t` of `x`, row `p`: row `512·t + p` of `x` as launched. -/
theorem xblk_at (c : Dev nD) (t : Fin cfg0.N) (p k : Fin 512) :
    xblk m c t (ix2 p k) = (m ((c : Thread nD τ).loc main_arg1) : S16384x512.Idx → EReal) (ix2 (rowOf t p) k) := by
  obtain ⟨e0, e1, -⟩ := idx_facts t
  show (V m c main_arg1 : S16384x512.Idx → EReal) (((cfg0.win 0).blk t).view.emb (ix2 p k)) = _
  rw [V_main_arg1]
  refine congrArg _ (funext fun a => Fin.ext ?_)
  match a with
  | ⟨0, _⟩ => show win0_0.index t (0 : Fin 2) * 512 + 1 * p.val = 512 * t.val + p.val; omega
  | ⟨1, _⟩ => show win0_0.index t (1 : Fin 2) * 512 + 1 * k.val = k.val; omega

/-- Tile `t` of `z`, row `p`: row `512·t + p` of `z` as launched. -/
theorem zblk_at (c : Dev nD) (t : Fin cfg0.N) (p k : Fin 512) :
    zblk m c t (ix2 p k) = (m ((c : Thread nD τ).loc main_arg0) : S16384x512.Idx → EReal) (ix2 (rowOf t p) k) := by
  obtain ⟨-, -, e0, e1, -⟩ := idx_facts t
  show (V m c main_arg0 : S16384x512.Idx → EReal) (((cfg0.win 1).blk t).view.emb (ix2 p k)) = _
  rw [V_main_arg0]
  refine congrArg _ (funext fun a => Fin.ext ?_)
  match a with
  | ⟨0, _⟩ => show win0_1.index t (0 : Fin 2) * 512 + 1 * p.val = 512 * t.val + p.val; omega
  | ⟨1, _⟩ => show win0_1.index t (1 : Fin 2) * 512 + 1 * k.val = k.val; omega

/-- The stacked input weights are handed over whole at every point. -/
theorem wblk_at (c : Dev nD) (t : Fin cfg0.N) (j : Fin 2048) (k : Fin 512) :
    wblk m c t (ix2 j k) = (V m c main_v1 : S2048x512.Idx → EReal) (ix2 j k) := by
  obtain ⟨-, -, -, -, e0, e1, -⟩ := idx_facts t
  show (V m c main_v1 : S2048x512.Idx → EReal) (((cfg0.win 2).blk t).view.emb (ix2 j k)) = _
  refine congrArg _ (funext fun a => Fin.ext ?_)
  match a with
  | ⟨0, _⟩ => show win0_2.index t (0 : Fin 2) * 2048 + 1 * j.val = j.val; omega
  | ⟨1, _⟩ => show win0_2.index t (1 : Fin 2) * 512 + 1 * k.val = k.val; omega

/-- The stacked hidden weights are handed over whole at every point. -/
theorem ublk_at (c : Dev nD) (t : Fin cfg0.N) (j : Fin 2048) (k : Fin 512) :
    ublk m c t (ix2 j k) = (V m c main_v3 : S2048x512.Idx → EReal) (ix2 j k) := by
  obtain ⟨-, -, -, -, -, -, e0, e1, -⟩ := idx_facts t
  show (V m c main_v3 : S2048x512.Idx → EReal) (((cfg0.win 3).blk t).view.emb (ix2 j k)) = _
  refine congrArg _ (funext fun a => Fin.ext ?_)
  match a with
  | ⟨0, _⟩ => show win0_3.index t (0 : Fin 2) * 2048 + 1 * j.val = j.val; omega
  | ⟨1, _⟩ => show win0_3.index t (1 : Fin 2) * 512 + 1 * k.val = k.val; omega

/-- The bias row is handed over whole at every point. -/
theorem bblk_at (c : Dev nD) (t : Fin cfg0.N) (j : Fin 2048) :
    bblk m c t (ix2 (0 : Fin 1) j) = (V m c main_v5 : S1x2048.Idx → EReal) (ix2 (0 : Fin 1) j) := by
  obtain ⟨-, -, -, -, -, -, -, -, e0, e1, -⟩ := idx_facts t
  show (V m c main_v5 : S1x2048.Idx → EReal) (((cfg0.win 4).blk t).view.emb (ix2 (0 : Fin 1) j)) = _
  refine congrArg _ (funext fun a => Fin.ext ?_)
  match a with
  | ⟨0, _⟩ => show win0_4.index t (0 : Fin 2) * 1 + 1 * 0 = 0; omega
  | ⟨1, _⟩ => show win0_4.index t (1 : Fin 2) * 2048 + 1 * j.val = j.val; omega

/-- The three stacked blocks, gate by gate, are the fourteen arguments' matrices and biases. -/
theorem stacked (c : Dev nD) (t : Fin cfg0.N) :
    Cert.Lstm.Stacked (wblk m c t) (ublk m c t) (bblk m c t)
      (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) where
  w0 h k := (wblk_at m c t _ k).trans (V_v1_at m c 0 h k)
  w1 h k := (wblk_at m c t _ k).trans (V_v1_at m c 1 h k)
  w2 h k := (wblk_at m c t _ k).trans (V_v1_at m c 2 h k)
  w3 h k := (wblk_at m c t _ k).trans (V_v1_at m c 3 h k)
  u0 h k := (ublk_at m c t _ k).trans (V_v3_at m c 0 h k)
  u1 h k := (ublk_at m c t _ k).trans (V_v3_at m c 1 h k)
  u2 h k := (ublk_at m c t _ k).trans (V_v3_at m c 2 h k)
  u3 h k := (ublk_at m c t _ k).trans (V_v3_at m c 3 h k)
  b0 h := (bblk_at m c t _).trans (V_v5_at m c 0 h)
  b1 h := (bblk_at m c t _).trans (V_v5_at m c 1 h)
  b2 h := (bblk_at m c t _).trans (V_v5_at m c 2 h)
  b3 h := (bblk_at m c t _).trans (V_v5_at m c 3 h)

/-! ## What each point writes back, and the two result arrays after the run -/

theorem hz : (![0, 0] : Fin 2 → Nat) = fun _ => 0 := funext fun a => by fin_cases a <;> rfl

/-- The one store over the whole buffer leaves the stored value. -/
theorem outH_eq (x0 x1 : Vec Ideal S512x512 .f32) (x2 x3 : Vec Ideal S2048x512 .bf16) (x4 : Vec Ideal S1x2048 .f32) :
    outH x0 x1 x2 x3 x4 = k0_pay3 (F := Ideal) x0 x1 x2 x3 x4 := by
  unfold outH
  rw [View.canon_unit_zero hz]
  simp only [View.ld_unit_zero (S := S512x512) hz, View.ld_unit_zero (S := S2048x512) hz, View.ld_unit_zero (S := S1x2048) hz]

theorem outC_eq (x0 x1 : Vec Ideal S512x512 .f32) (x2 x3 : Vec Ideal S2048x512 .bf16) (x4 : Vec Ideal S1x2048 .f32) :
    outC x0 x1 x2 x3 x4 = k0_pay2 (F := Ideal) x0 x1 x2 x3 x4 := by
  unfold outC
  rw [View.canon_unit_zero hz]
  simp only [View.ld_unit_zero (S := S512x512) hz, View.ld_unit_zero (S := S2048x512) hz, View.ld_unit_zero (S := S1x2048) hz]

/-- The hidden-state tile the body stores at point `t` is the whole-array hidden state at rows `512·t …`. -/
theorem hiddenBlock_eq (c : Dev nD) (t : Fin cfg0.N) (p q : Fin 512) :
    k0_pay3 (F := Ideal) (xblk m c t) (zblk m c t) (wblk m c t) (ublk m c t) (bblk m c t) (ix2 p q)
      = Cert.Lstm.hiddenAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (rowOf t p) q :=
  (Cert.Lstm.Tile.hidden_at _ _ _ _ _ p q).trans
    (Cert.Lstm.hiddenTile_eq (stacked m c t) (rowOf t p) p q (fun k => xblk_at m c t p k) (fun k => zblk_at m c t p k))

/-- The cell-state tile the body stores at point `t` is the whole-array cell state at rows `512·t …`. -/
theorem cellBlock_eq (c : Dev nD) (t : Fin cfg0.N) (p q : Fin 512) :
    k0_pay2 (F := Ideal) (xblk m c t) (zblk m c t) (wblk m c t) (ublk m c t) (bblk m c t) (ix2 p q)
      = Cert.Lstm.cellAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (rowOf t p) q :=
  (Cert.Lstm.Tile.cell_at _ _ _ _ _ p q).trans
    (Cert.Lstm.cellTile_eq (stacked m c t) (rowOf t p) p q (fun k => xblk_at m c t p k) (fun k => zblk_at m c t p k))

/-- Block `t` of the whole-array hidden state, as a tile: entry `(p, q)` is the array's at `(512·t + p, q)`. -/
def hiddenTileArr (c : Dev nD) (t : Fin cfg0.N) : S512x512.Idx → EReal :=
  fun j => Cert.Lstm.hiddenAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (rowOf t (j 0)) (j 1)

/-- Block `t` of the whole-array cell state, as a tile. -/
def cellTileArr (c : Dev nD) (t : Fin cfg0.N) : S512x512.Idx → EReal :=
  fun j => Cert.Lstm.cellAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (rowOf t (j 0)) (j 1)

theorem storedH_eq (c : Dev nD) (t : Fin cfg0.N) :
    k0_pay3 (F := Ideal) (xblk m c t) (zblk m c t) (wblk m c t) (ublk m c t) (bblk m c t) = hiddenTileArr m c t := by
  funext j
  obtain ⟨p, q, rfl⟩ : ∃ (p q : Fin 512), j = ix2 p q := ⟨j 0, j 1, eq_ix2 j⟩
  exact hiddenBlock_eq m c t p q

theorem storedC_eq (c : Dev nD) (t : Fin cfg0.N) :
    k0_pay2 (F := Ideal) (xblk m c t) (zblk m c t) (wblk m c t) (ublk m c t) (bblk m c t) = cellTileArr m c t := by
  funext j
  obtain ⟨p, q, rfl⟩ : ∃ (p q : Fin 512), j = ix2 p q := ⟨j 0, j 1, eq_ix2 j⟩
  exact cellBlock_eq m c t p q

/-- The hidden-state array read through window 5's block at point `t` is that tile. -/
theorem readH_eq (c : Dev nD) (t : Fin cfg0.N) :
    (((cfg0.win 5).blk t).view.read (Elt Ideal) (Cert.Lstm.hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) : S512x512.Idx → EReal)
      = hiddenTileArr m c t := by
  obtain ⟨-, -, -, -, -, -, -, -, -, -, e0, e1, -⟩ := idx_facts t
  funext j
  show Cert.Lstm.hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (((cfg0.win 5).blk t).view.emb j) = _
  unfold Cert.Lstm.hiddenArr hiddenTileArr
  have h0 : ((((cfg0.win 5).blk t).view.emb j) 0).val = 512 * t.val + (j 0).val := by
    show win0_5.index t (0 : Fin 2) * 512 + 1 * (j 0).val = _; omega
  have h1 : ((((cfg0.win 5).blk t).view.emb j) 1).val = (j 1).val := by
    show win0_5.index t (1 : Fin 2) * 512 + 1 * (j 1).val = _; omega
  exact congrArg₂ _ (Fin.ext h0) (Fin.ext h1)

/-- The cell-state array read through window 6's block at point `t` is that tile. -/
theorem readC_eq (c : Dev nD) (t : Fin cfg0.N) :
    (((cfg0.win 6).blk t).view.read (Elt Ideal) (Cert.Lstm.cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) : S512x512.Idx → EReal)
      = cellTileArr m c t := by
  obtain ⟨-, -, -, -, -, -, -, -, -, -, -, -, e0, e1⟩ := idx_facts t
  funext j
  show Cert.Lstm.cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (((cfg0.win 6).blk t).view.emb j) = _
  unfold Cert.Lstm.cellArr cellTileArr
  have h0 : ((((cfg0.win 6).blk t).view.emb j) 0).val = 512 * t.val + (j 0).val := by
    show win0_6.index t (0 : Fin 2) * 512 + 1 * (j 0).val = _; omega
  have h1 : ((((cfg0.win 6).blk t).view.emb j) 1).val = (j 1).val := by
    show win0_6.index t (1 : Fin 2) * 512 + 1 * (j 1).val = _; omega
  exact congrArg₂ _ (Fin.ext h0) (Fin.ext h1)

/-- What point `t` writes back to the hidden-state array is block `t` of the whole-array hidden state. -/
theorem flushedH_eq (c : Dev nD) (t : Fin cfg0.N) :
    (dats m 0 c).flushed 5 t = ((cfg0.win 5).blk t).view.read (Elt Ideal) (Cert.Lstm.hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) := by
  show (cfg0.win 5).cut (grid0.coords t) ((dats m 0 c).after 5 t) = _
  rw [after0_5]
  exact (outH_eq (xblk m c t) (zblk m c t) (wblk m c t) (ublk m c t) (bblk m c t)).trans
    ((storedH_eq m c t).trans (readH_eq m c t).symm)

/-- What point `t` writes back to the cell-state array is block `t` of the whole-array cell state. -/
theorem flushedC_eq (c : Dev nD) (t : Fin cfg0.N) :
    (dats m 0 c).flushed 6 t = ((cfg0.win 6).blk t).view.read (Elt Ideal) (Cert.Lstm.cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) := by
  show (cfg0.win 6).cut (grid0.coords t) ((dats m 0 c).after 6 t) = _
  rw [after0_6]
  exact (outC_eq (xblk m c t) (zblk m c t) (wblk m c t) (ublk m c t) (bblk m c t)).trans
    ((storedC_eq m c t).trans (readC_eq m c t).symm)

/-- An index of a result array is in point `t`'s block iff each coordinate is in the block's range on its axis. -/
theorem mem_blk5 (t : Fin cfg0.N) (i : S16384x512.Idx) :
    i ∈ ((cfg0.win 5).blk t).view.set ↔ ∀ a : Fin 2, win0_5.index t a * S512x512.size a ≤ (i a).val ∧ (i a).val < win0_5.index t a * S512x512.size a + S512x512.size a := by
  show i ∈ ((View.whole main_v6_0).slice (win0_5.rect t)).set ↔ _
  rw [View.set_slice_whole, Rect.mem_set_unit]
  exact Iff.rfl
theorem mem_blk6 (t : Fin cfg0.N) (i : S16384x512.Idx) :
    i ∈ ((cfg0.win 6).blk t).view.set ↔ ∀ a : Fin 2, win0_6.index t a * S512x512.size a ≤ (i a).val ∧ (i a).val < win0_6.index t a * S512x512.size a + S512x512.size a := by
  show i ∈ ((View.whole main_v6_1).slice (win0_6.rect t)).set ↔ _
  rw [View.set_slice_whole, Rect.mem_set_unit]
  exact Iff.rfl

/-- Every row of a result array lies in the block of the point `row / 512`, which writes it back. -/
theorem coverH (i : S16384x512.Idx) : ∃ t : Fin cfg0.N, (cfg0.win 5).flush t = true ∧ i ∈ ((cfg0.win 5).blk t).view.set := by
  have hi0 : (i 0).val < 16384 := (i 0).isLt
  have hi1 : (i 1).val < 512 := (i 1).isLt
  have ht : (i 0).val / 512 < cfg0.N := by rw [show cfg0.N = 32 from N_0]; omega
  obtain ⟨-, -, -, -, -, -, -, -, -, -, e0, e1, -⟩ := idx_facts ⟨(i 0).val / 512, ht⟩
  refine ⟨⟨(i 0).val / 512, ht⟩, flush0_5 _, ?_⟩
  rw [mem_blk5]
  intro a
  match a with
  | ⟨0, _⟩ =>
    show win0_5.index ⟨(i 0).val / 512, ht⟩ (0 : Fin 2) * 512 ≤ (i 0).val ∧ (i 0).val < win0_5.index ⟨(i 0).val / 512, ht⟩ (0 : Fin 2) * 512 + 512
    rw [e0]; show (i 0).val / 512 * 512 ≤ (i 0).val ∧ (i 0).val < (i 0).val / 512 * 512 + 512; omega
  | ⟨1, _⟩ =>
    show win0_5.index ⟨(i 0).val / 512, ht⟩ (1 : Fin 2) * 512 ≤ (i 1).val ∧ (i 1).val < win0_5.index ⟨(i 0).val / 512, ht⟩ (1 : Fin 2) * 512 + 512
    rw [e1]; omega
theorem coverC (i : S16384x512.Idx) : ∃ t : Fin cfg0.N, (cfg0.win 6).flush t = true ∧ i ∈ ((cfg0.win 6).blk t).view.set := by
  have hi0 : (i 0).val < 16384 := (i 0).isLt
  have hi1 : (i 1).val < 512 := (i 1).isLt
  have ht : (i 0).val / 512 < cfg0.N := by rw [show cfg0.N = 32 from N_0]; omega
  obtain ⟨-, -, -, -, -, -, -, -, -, -, -, -, e0, e1⟩ := idx_facts ⟨(i 0).val / 512, ht⟩
  refine ⟨⟨(i 0).val / 512, ht⟩, flush0_6 _, ?_⟩
  rw [mem_blk6]
  intro a
  match a with
  | ⟨0, _⟩ =>
    show win0_6.index ⟨(i 0).val / 512, ht⟩ (0 : Fin 2) * 512 ≤ (i 0).val ∧ (i 0).val < win0_6.index ⟨(i 0).val / 512, ht⟩ (0 : Fin 2) * 512 + 512
    rw [e0]; show (i 0).val / 512 * 512 ≤ (i 0).val ∧ (i 0).val < (i 0).val / 512 * 512 + 512; omega
  | ⟨1, _⟩ =>
    show win0_6.index ⟨(i 0).val / 512, ht⟩ (1 : Fin 2) * 512 ≤ (i 1).val ∧ (i 1).val < win0_6.index ⟨(i 0).val / 512, ht⟩ (1 : Fin 2) * 512 + 512
    rw [e1]; omega

/-- The hidden-state array after the run. -/
theorem finalH (c : Dev nD) : (dats m 0 c).arrAt 5 cfg0.N = Cert.Lstm.hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  (dats m 0 c).arrAt_eq_of_cover 5 _ (fun t _ => flushedH_eq m c t) coverH

/-- The cell-state array after the run. -/
theorem finalC (c : Dev nD) : (dats m 0 c).arrAt 6 cfg0.N = Cert.Lstm.cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  (dats m 0 c).arrAt_eq_of_cover 6 _ (fun t _ => flushedC_eq m c t) coverC

/-! ## The run, read -/

/-- Every weakly fair execution of the idealized kernel program terminates with its first result the next hidden
    state and its second the next cell state of the fourteen arguments as launched, the arguments unchanged. -/
theorem run : θ_run defs (onTc (τ := τ) (main (F := Ideal))) ⟨m, fun _ => 0, ρ⟩ fun r => ∀ c : Dev nD,
      r.2.mem ((c : Thread nD τ).loc main_v6_0) = Cert.Lstm.hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
      ∧ r.2.mem ((c : Thread nD τ).loc main_v6_1) = Cert.Lstm.cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨((h c).1 5).trans (finalH m c), ((h c).1 6).trans (finalC m c),
      kept_of_post m (dats m) (A_eq m) r h c⟩) (run_main m ρ)

end Cert.KernelIdeal.Val

end
-- ==== Proof.RefValue.lean ====
/-
  The reference's two results are the cell's next cell state and next hidden state.

  The reference stacks the four gates' weight matrices, biases and recurrent matrices into [4, 512, 512], [4, 512]
  and [4, 512, 512] arrays, forms all four pre-activations at once as
      pre[g, r, h] = (Σ_k W[g, h, k]·x[r, k] + b[g, h]) + Σ_k U[g, h, k]·z[r, k],
  cuts gate g out as the slice pre[g, ·, ·], and spells the logistic function as 1 / (1 + exp (−y)).
  Reading a stack at (g, ·) gives the g-th stacked array, so pre[g, r, h] is gate g's pre-activation
  (Σ_k x[r, k]·W_g[h, k] + Σ_k z[r, k]·U_g[h, k]) + b_g[h] by commutativity of the product and of the sum; the rest is
  the cell's arithmetic term by term.
-/
import proofs.«174672_j5557687681205_1_alg».proof.Proof.Gen.ReferenceIdeal.Read
import proofs.«174672_j5557687681205_1_alg».proof.Proof.Spec
import Idealize.ShloMosaic.Lib.Pipeline.Value
import Idealize.ShloMosaic.Lib.ValueIdx
import Idealize.ShloMosaic.Lib.IdealHost

noncomputable section

namespace Cert.Lstm.Ref

open Cert.ReferenceIdeal Cert.ReferenceIdeal.Gen Cert.ReferenceIdeal.Read Idealize.ShloMosaic Idealize.ShloMosaic.ValueIdx

/-- The `g`-th of four things. -/
def pick4 {α : Type} (g : Fin 4) (a b c d : α) : α :=
  match g with
  | ⟨0, _⟩ => a
  | ⟨1, _⟩ => b
  | ⟨2, _⟩ => c
  | ⟨3, _⟩ => d

/-! ## The three stacks read at a gate -/

/-- The stacked weight matrices at `(g, h, k)`: the `g`-th matrix at `(h, k)`. -/
theorem stackW_read (x2 x3 x4 x5 : (⟨S512x512, .f32⟩ : BufTy).Contents (Elt Ideal)) (g : Fin 4) (h k : Fin 512) :
    val_main_v4 (F := Ideal) x2 x3 x4 x5 (ix3 g h k) = pick4 g x2 x3 x4 x5 (ix2 h k) := by
  unfold val_main_v4
  have e := concatenate_ofFn_unit_apply (t := S4x512x512) (s₁ := S1x512x512) (0 : Fin 3)
    (fun n : Fin 4 => pick4 n (val_main_v0 (F := Ideal) x2) (val_main_v1 (F := Ideal) x3) (val_main_v2 (F := Ideal) x4) (val_main_v3 (F := Ideal) x5))
    concatenates_S1x512x512_S1x512x512_S1x512x512_S1x512x512_S4x512x512_d0 rfl rfl (ix3 g h k) g rfl
    (ix3 (0 : Fin 1) h k) (fun b hb => by
      match b with
      | ⟨0, _⟩ => exact absurd rfl hb
      | ⟨1, _⟩ => rfl
      | ⟨2, _⟩ => rfl)
  refine e.trans ?_
  match g with
  | ⟨0, _⟩ => exact (val_main_v0_apply x2 _).trans (congrArg x2 (funext fun a => match a with | ⟨0, _⟩ => rfl | ⟨1, _⟩ => rfl))
  | ⟨1, _⟩ => exact (val_main_v1_apply x3 _).trans (congrArg x3 (funext fun a => match a with | ⟨0, _⟩ => rfl | ⟨1, _⟩ => rfl))
  | ⟨2, _⟩ => exact (val_main_v2_apply x4 _).trans (congrArg x4 (funext fun a => match a with | ⟨0, _⟩ => rfl | ⟨1, _⟩ => rfl))
  | ⟨3, _⟩ => exact (val_main_v3_apply x5 _).trans (congrArg x5 (funext fun a => match a with | ⟨0, _⟩ => rfl | ⟨1, _⟩ => rfl))

/-- The stacked biases at `(g, h)`: the `g`-th bias at `h`. -/
theorem stackb_read (x6 x7 x8 x9 : (⟨S512, .f32⟩ : BufTy).Contents (Elt Ideal)) (g : Fin 4) (h : Fin 512) :
    val_main_v9 (F := Ideal) x6 x7 x8 x9 (ix2 g h) = pick4 g x6 x7 x8 x9 (ix1 h) := by
  unfold val_main_v9
  have e := concatenate_ofFn_unit_apply (t := S4x512) (s₁ := S1x512) (0 : Fin 2)
    (fun n : Fin 4 => pick4 n (val_main_v5 (F := Ideal) x6) (val_main_v6 (F := Ideal) x7) (val_main_v7 (F := Ideal) x8) (val_main_v8 (F := Ideal) x9))
    concatenates_S1x512_S1x512_S1x512_S1x512_S4x512_d0 rfl rfl (ix2 g h) g rfl
    (ix2 (0 : Fin 1) h) (fun b hb => by
      match b with
      | ⟨0, _⟩ => exact absurd rfl hb
      | ⟨1, _⟩ => rfl)
  refine e.trans ?_
  match g with
  | ⟨0, _⟩ => exact (val_main_v5_apply x6 _).trans (congrArg x6 (funext fun a => match a with | ⟨0, _⟩ => rfl))
  | ⟨1, _⟩ => exact (val_main_v6_apply x7 _).trans (congrArg x7 (funext fun a => match a with | ⟨0, _⟩ => rfl))
  | ⟨2, _⟩ => exact (val_main_v7_apply x8 _).trans (congrArg x8 (funext fun a => match a with | ⟨0, _⟩ => rfl))
  | ⟨3, _⟩ => exact (val_main_v8_apply x9 _).trans (congrArg x9 (funext fun a => match a with | ⟨0, _⟩ => rfl))

/-- The stacked recurrent matrices at `(g, h, k)`: the `g`-th matrix at `(h, k)`. -/
theorem stackU_read (x10 x11 x12 x13 : (⟨S512x512, .f32⟩ : BufTy).Contents (Elt Ideal)) (g : Fin 4) (h k : Fin 512) :
    val_main_v14 (F := Ideal) x10 x11 x12 x13 (ix3 g h k) = pick4 g x10 x11 x12 x13 (ix2 h k) := by
  unfold val_main_v14
  have e := concatenate_ofFn_unit_apply (t := S4x512x512) (s₁ := S1x512x512) (0 : Fin 3)
    (fun n : Fin 4 => pick4 n (val_main_v10 (F := Ideal) x10) (val_main_v11 (F := Ideal) x11) (val_main_v12 (F := Ideal) x12) (val_main_v13 (F := Ideal) x13))
    concatenates_S1x512x512_S1x512x512_S1x512x512_S1x512x512_S4x512x512_d0 rfl rfl (ix3 g h k) g rfl
    (ix3 (0 : Fin 1) h k) (fun b hb => by
      match b with
      | ⟨0, _⟩ => exact absurd rfl hb
      | ⟨1, _⟩ => rfl
      | ⟨2, _⟩ => rfl)
  refine e.trans ?_
  match g with
  | ⟨0, _⟩ => exact (val_main_v10_apply x10 _).trans (congrArg x10 (funext fun a => match a with | ⟨0, _⟩ => rfl | ⟨1, _⟩ => rfl))
  | ⟨1, _⟩ => exact (val_main_v11_apply x11 _).trans (congrArg x11 (funext fun a => match a with | ⟨0, _⟩ => rfl | ⟨1, _⟩ => rfl))
  | ⟨2, _⟩ => exact (val_main_v12_apply x12 _).trans (congrArg x12 (funext fun a => match a with | ⟨0, _⟩ => rfl | ⟨1, _⟩ => rfl))
  | ⟨3, _⟩ => exact (val_main_v13_apply x13 _).trans (congrArg x13 (funext fun a => match a with | ⟨0, _⟩ => rfl | ⟨1, _⟩ => rfl))

/-! ## The stacked pre-activation is the gate's -/

/-- The stacked pre-activation at `(g, r, h)` is gate `g`'s pre-activation at `(r, h)`: the products commute and
    `(A + b) + C = (A + C) + b`. -/
theorem preact (x0 x1 : (⟨S16384x512, .f32⟩ : BufTy).Contents (Elt Ideal)) (x2 x3 x4 x5 : (⟨S512x512, .f32⟩ : BufTy).Contents (Elt Ideal))
    (x6 x7 x8 x9 : (⟨S512, .f32⟩ : BufTy).Contents (Elt Ideal)) (x10 x11 x12 x13 : (⟨S512x512, .f32⟩ : BufTy).Contents (Elt Ideal))
    (g : Fin 4) (r : Fin 16384) (h : Fin 512) :
    val_main_v22 (F := Ideal) x0 x1 x2 x3 x4 x5 x6 x7 x8 x9 x10 x11 x12 x13 (ix3 g r h)
      = Cert.Lstm.gate x1 x0 (pick4 g x2 x3 x4 x5) (pick4 g x10 x11 x12 x13) (pick4 g x6 x7 x8 x9) r h := by
  have eW : ∀ k : Fin 512, lidx_main_v15 (idx_main_v16 (ix3 g r h)) k = ix3 g h k := fun k =>
    funext fun a => match a with | ⟨0, _⟩ => rfl | ⟨1, _⟩ => rfl | ⟨2, _⟩ => rfl
  have ex : ∀ k : Fin 512, ridx_main_v15 (idx_main_v16 (ix3 g r h)) k = ix2 r k := fun k =>
    funext fun a => match a with | ⟨0, _⟩ => rfl | ⟨1, _⟩ => rfl
  have eU : ∀ k : Fin 512, lidx_main_v20 (idx_main_v21 (ix3 g r h)) k = ix3 g h k := fun k =>
    funext fun a => match a with | ⟨0, _⟩ => rfl | ⟨1, _⟩ => rfl | ⟨2, _⟩ => rfl
  have ez : ∀ k : Fin 512, ridx_main_v20 (idx_main_v21 (ix3 g r h)) k = ix2 r k := fun k =>
    funext fun a => match a with | ⟨0, _⟩ => rfl | ⟨1, _⟩ => rfl
  have eb : idx_main_v17 (idx_main_v18 (ix3 g r h)) = ix2 g h :=
    funext fun a => match a with | ⟨0, _⟩ => rfl | ⟨1, _⟩ => rfl
  rw [val_main_v22_apply, val_main_v19_apply, val_main_v16_apply, val_main_v15_apply, val_main_v18_apply,
    val_main_v17_apply, val_main_v21_apply, val_main_v20_apply, eb, stackb_read]
  simp only [eW, ex, eU, ez, stackW_read, stackU_read, Ideal.addf_def]
  unfold Cert.Lstm.gate
  rw [add_right_comm]
  congr 2
  · exact Finset.sum_congr rfl fun k _ => mul_comm _ _
  · exact Finset.sum_congr rfl fun k _ => mul_comm _ _

/-! ## The four gates cut out of the stack -/

/-- Slice `g` of the stack, with its unit axis dropped, at `(r, h)`: the stack at `(g, r, h)`. The four slices start
    at 0, 1, 2 and 3 along the gate axis, and a row-major position `r·512 + h` has quotient `r` and remainder `h`. -/
theorem slice0 (r : Fin 16384) (h : Fin 512) : idx_main_v23 (idx_main_v24 (ix2 r h)) = ix3 (0 : Fin 4) r h :=
  funext fun a => Fin.ext (by
    have hr := r.isLt; have hh := h.isLt
    match a with
    | ⟨0, _⟩ => rfl
    | ⟨1, _⟩ => show (r.val * 512 + h.val) / 512 % 16384 = r.val; omega
    | ⟨2, _⟩ => show (r.val * 512 + h.val) % 512 = h.val; omega)
theorem slice1 (r : Fin 16384) (h : Fin 512) : idx_main_v31 (idx_main_v32 (ix2 r h)) = ix3 (1 : Fin 4) r h :=
  funext fun a => Fin.ext (by
    have hr := r.isLt; have hh := h.isLt
    match a with
    | ⟨0, _⟩ => rfl
    | ⟨1, _⟩ => show (r.val * 512 + h.val) / 512 % 16384 = r.val; omega
    | ⟨2, _⟩ => show (r.val * 512 + h.val) % 512 = h.val; omega)
theorem slice2 (r : Fin 16384) (h : Fin 512) : idx_main_v39 (idx_main_v40 (ix2 r h)) = ix3 (2 : Fin 4) r h :=
  funext fun a => Fin.ext (by
    have hr := r.isLt; have hh := h.isLt
    match a with
    | ⟨0, _⟩ => rfl
    | ⟨1, _⟩ => show (r.val * 512 + h.val) / 512 % 16384 = r.val; omega
    | ⟨2, _⟩ => show (r.val * 512 + h.val) % 512 = h.val; omega)
theorem slice3 (r : Fin 16384) (h : Fin 512) : idx_main_v42 (idx_main_v43 (ix2 r h)) = ix3 (3 : Fin 4) r h :=
  funext fun a => Fin.ext (by
    have hr := r.isLt; have hh := h.isLt
    match a with
    | ⟨0, _⟩ => rfl
    | ⟨1, _⟩ => show (r.val * 512 + h.val) / 512 % 16384 = r.val; omega
    | ⟨2, _⟩ => show (r.val * 512 + h.val) % 512 = h.val; omega)

/-- `1 / (1 + exp (−y))`, with both ones given by the bit pattern of 1, is the logistic function. -/
theorem logistic_spelt (y : EReal) :
    FloatOps.hostDivf (F := Ideal) (φ := .f32) (FloatOps.ofBits .f32 0x3F800000#32)
      (FloatOps.addf (FloatOps.ofBits .f32 0x3F800000#32) (FloatOps.hostUnary .exp (FloatOps.hostNegf y))) = Ideal.logistic y := by
  rw [Ideal.hostDivf_def, Ideal.addf_def, Ideal.hostUnary_exp_def, Ideal.hostNegf_def, Ideal.negf_def, Ideal.ofBits_def,
    Ideal.ofBits_one_f32]
  rfl

section Gates
variable (x0 x1 : (⟨S16384x512, .f32⟩ : BufTy).Contents (Elt Ideal)) (x2 x3 x4 x5 : (⟨S512x512, .f32⟩ : BufTy).Contents (Elt Ideal))
  (x6 x7 x8 x9 : (⟨S512, .f32⟩ : BufTy).Contents (Elt Ideal)) (x10 x11 x12 x13 : (⟨S512x512, .f32⟩ : BufTy).Contents (Elt Ideal))
  (r : Fin 16384) (h : Fin 512)

/-- The logistic of the input gate. -/
theorem sigma_input : val_main_v30 (F := Ideal) x0 x1 x2 x3 x4 x5 x6 x7 x8 x9 x10 x11 x12 x13 (ix2 r h)
    = Ideal.logistic (Cert.Lstm.gate x1 x0 x2 x10 x6 r h) := by
  rw [val_main_v30_apply, val_main_v29_apply, val_main_cst_0_apply, val_main_v28_apply, val_main_v27_apply, val_main_cst_apply,
    val_main_v26_apply, val_main_v25_apply, val_main_v24_apply, val_main_v23_apply, slice0, preact, logistic_spelt]
  rfl

/-- The logistic of the forget gate. -/
theorem sigma_forget : val_main_v38 (F := Ideal) x0 x1 x2 x3 x4 x5 x6 x7 x8 x9 x10 x11 x12 x13 (ix2 r h)
    = Ideal.logistic (Cert.Lstm.gate x1 x0 x3 x11 x7 r h) := by
  rw [val_main_v38_apply, val_main_v37_apply, val_main_cst_2_apply, val_main_v36_apply, val_main_v35_apply, val_main_cst_1_apply,
    val_main_v34_apply, val_main_v33_apply, val_main_v32_apply, val_main_v31_apply, slice1, preact, logistic_spelt]
  rfl

/-- The hyperbolic tangent of the cell gate. -/
theorem tanh_cell : val_main_v41 (F := Ideal) x0 x1 x2 x3 x4 x5 x6 x7 x8 x9 x10 x11 x12 x13 (ix2 r h)
    = Ideal.tanh (Cert.Lstm.gate x1 x0 x4 x12 x8 r h) := by
  rw [val_main_v41_apply, val_main_v40_apply, val_main_v39_apply, slice2, preact, Ideal.hostUnary_tanh_def]
  rfl

/-- The logistic of the output gate. -/
theorem sigma_output : val_main_v49 (F := Ideal) x0 x1 x2 x3 x4 x5 x6 x7 x8 x9 x10 x11 x12 x13 (ix2 r h)
    = Ideal.logistic (Cert.Lstm.gate x1 x0 x5 x13 x9 r h) := by
  rw [val_main_v49_apply, val_main_v48_apply, val_main_cst_4_apply, val_main_v47_apply, val_main_v46_apply, val_main_cst_3_apply,
    val_main_v45_apply, val_main_v44_apply, val_main_v43_apply, val_main_v42_apply, slice3, preact, logistic_spelt]
  rfl

/-- The reference's next cell state at `(r, h)`. -/
theorem cell_at : val_main_v52 (F := Ideal) x0 x1 x2 x3 x4 x5 x6 x7 x8 x9 x10 x11 x12 x13 (ix2 r h)
    = Cert.Lstm.cellAt x0 x1 x2 x3 x4 x5 x6 x7 x8 x9 x10 x11 x12 x13 r h := by
  rw [val_main_v52_apply, val_main_v50_apply, val_main_v51_apply, sigma_forget, sigma_input, tanh_cell]
  rfl

/-- The reference's next hidden state at `(r, h)`. -/
theorem hidden_at : val_main_v54 (F := Ideal) x0 x1 x2 x3 x4 x5 x6 x7 x8 x9 x10 x11 x12 x13 (ix2 r h)
    = Cert.Lstm.hiddenAt x0 x1 x2 x3 x4 x5 x6 x7 x8 x9 x10 x11 x12 x13 r h := by
  rw [val_main_v54_apply, val_main_v53_apply, sigma_output, cell_at, Ideal.hostUnary_tanh_def]
  rfl

end Gates

/-! ## The two results as arrays -/

/-- The reference's first result is the next cell state. -/
theorem cell_eq (x0 x1 : (⟨Cert.ReferenceIdeal.S16384x512, .f32⟩ : BufTy).Contents (Elt Ideal)) (x2 x3 x4 x5 : (⟨Cert.ReferenceIdeal.S512x512, .f32⟩ : BufTy).Contents (Elt Ideal)) (x6 x7 x8 x9 : (⟨Cert.ReferenceIdeal.S512, .f32⟩ : BufTy).Contents (Elt Ideal)) (x10 x11 x12 x13 : (⟨Cert.ReferenceIdeal.S512x512, .f32⟩ : BufTy).Contents (Elt Ideal)) :
    Cert.ReferenceIdeal.Read.val_main_v52 (F := Ideal) x0 x1 x2 x3 x4 x5 x6 x7 x8 x9 x10 x11 x12 x13
      = Cert.Lstm.cellArr x0 x1 x2 x3 x4 x5 x6 x7 x8 x9 x10 x11 x12 x13 := by
  funext j
  obtain ⟨r, h, rfl⟩ : ∃ (r : Fin 16384) (h : Fin 512), j = ValueIdx.ix2 r h := ⟨j 0, j 1, ValueIdx.eq_ix2 j⟩
  exact cell_at x0 x1 x2 x3 x4 x5 x6 x7 x8 x9 x10 x11 x12 x13 r h

/-- The reference's second result is the next hidden state. -/
theorem hidden_eq (x0 x1 : (⟨Cert.ReferenceIdeal.S16384x512, .f32⟩ : BufTy).Contents (Elt Ideal)) (x2 x3 x4 x5 : (⟨Cert.ReferenceIdeal.S512x512, .f32⟩ : BufTy).Contents (Elt Ideal)) (x6 x7 x8 x9 : (⟨Cert.ReferenceIdeal.S512, .f32⟩ : BufTy).Contents (Elt Ideal)) (x10 x11 x12 x13 : (⟨Cert.ReferenceIdeal.S512x512, .f32⟩ : BufTy).Contents (Elt Ideal)) :
    Cert.ReferenceIdeal.Read.val_main_v54 (F := Ideal) x0 x1 x2 x3 x4 x5 x6 x7 x8 x9 x10 x11 x12 x13
      = Cert.Lstm.hiddenArr x0 x1 x2 x3 x4 x5 x6 x7 x8 x9 x10 x11 x12 x13 := by
  funext j
  obtain ⟨r, h, rfl⟩ : ∃ (r : Fin 16384) (h : Fin 512), j = ValueIdx.ix2 r h := ⟨j 0, j 1, ValueIdx.eq_ix2 j⟩
  exact hidden_at x0 x1 x2 x3 x4 x5 x6 x7 x8 x9 x10 x11 x12 x13 r h

end Cert.Lstm.Ref

end
-- ==== Proof.lean ====
/-
  The certificate of the LSTM cell kernel against its reference.

  Both programs compute, for every batch row r and hidden unit h, the four gate pre-activations
      (Σ_k x[r,k]·W_g[h,k] + Σ_k z[r,k]·U_g[h,k]) + b_g[h]        (g = input, forget, cell, output),
  the next cell state  c' = σ(forget)·z + σ(input)·tanh(cell)  and the next hidden state  h' = σ(output)·tanh(c').
  The kernel stacks the four weight matrices along the rows and the four biases into one row on the host, and at each
  of 32 batch tiles of 512 rows forms all four pre-activations by two contractions against the stacks, adds the bias
  row, and cuts the gates out as four bands of 512 columns; the reference stacks the matrices along a new leading axis
  and contracts once for all rows. On the extended reals a change of float format is the identity, the matrix
  product into a zero accumulator is the plain sum of products, and the kernel's logistic is the reference's
  `1 / (1 + exp (−y))`; the two sides then differ only in the order of the factors of each product and in the
  grouping of the three summands, so they agree for every input: the precondition is not used.

  The three frames: the two kernel programs by the pipeline's frame run over the body's triple (one text for both
  float instances), the reference by its run. The idealization rewrote nothing, so there is nothing to preserve.
-/
import proofs.«174672_j5557687681205_1_alg».proof.Defs
import proofs.«174672_j5557687681205_1_alg».proof.Proof.Gen.Kernel
import proofs.«174672_j5557687681205_1_alg».proof.Proof.Gen.KernelIdeal
import proofs.«174672_j5557687681205_1_alg».proof.Proof.Gen.ReferenceIdeal
import proofs.«174672_j5557687681205_1_alg».proof.Proof.Gen.Pre_finite_inputs
import proofs.«174672_j5557687681205_1_alg».proof.Proof.Gen.ReferenceIdeal.Run
import proofs.«174672_j5557687681205_1_alg».proof.Proof.Gen.ReferenceIdeal.Read
import proofs.«174672_j5557687681205_1_alg».proof.Proof.FrameBits
import proofs.«174672_j5557687681205_1_alg».proof.Proof.FrameIdeal
import proofs.«174672_j5557687681205_1_alg».proof.Proof.KernelValue
import proofs.«174672_j5557687681205_1_alg».proof.Proof.RefValue

noncomputable section

namespace Cert.Proof

open Idealize.ShloMosaic Idealize.SL.Sem

theorem frame_kernel : Cert.frame_Kernel := fun m ρ _ => Cert.Kernel.Fr.frame m ρ

theorem frame_kernelIdeal : Cert.frame_KernelIdeal := fun m ρ _ => Cert.KernelIdeal.Fr.frame m ρ

/-- The reference's frame is its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the fourteen arguments both programs end with the next hidden state and the next
    cell state of those arguments. -/
theorem algebraic : Cert.algebraic_KernelIdeal_ReferenceIdeal := by
  intro m ρ m' ρ' _ hagree
  refine ⟨fun c => Cert.Lstm.hiddenArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    fun c => Cert.Lstm.cellArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    Cert.KernelIdeal.Val.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12, a13⟩ := hagree c
    rw [Cert.ReferenceIdeal.Read.val_main_v54_eq, Cert.Lstm.Ref.hidden_eq, a0, a1, a2, a3, a4, a5, a6, a7, a8, a9, a10, a11, a12, a13]
  · obtain ⟨a0, a1, a2, a3, a4, a5, a6, a7, a8, a9, a10, a11, a12, a13⟩ := hagree c
    rw [Cert.ReferenceIdeal.Read.val_main_v52_eq, Cert.Lstm.Ref.cell_eq, a0, a1, a2, a3, a4, a5, a6, a7, a8, a9, a10, a11, a12, a13]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
